-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S8x4096 : Shape := ⟨2, ![8, 4096]⟩
abbrev S192x64 : Shape := ⟨2, ![192, 64]⟩
abbrev S192 : Shape := ⟨1, ![192]⟩
abbrev S1280000 : Shape := ⟨1, ![1280000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1280000 : S_.BroadcastsInDim S1280000 (![] : Fin 0 → Fin S1280000.rank)
  reducesTo_S1280000_S_d0 : S1280000.ReducesTo [0] S_

variable [Facts]

def fn_part2 {F : FTy → Type} [FloatOps F] (main_arg6 : IVec S1280000 32) (main_arg8 : IVec S1280000 32) (main_v32 : IVec S_ 1) (main_c_12 : IVec S_ 32) : IVec S_ 1 :=
  let main_v33 : IVec S1280000 32 := broadcastInDim S1280000 ![] bcast_S_S1280000 main_c_12
  let main_v34 : IVec S1280000 1 := cmpi .slt main_arg6 main_v33
  let main_c_13 : IVec S_ 1 := constantI S_ 1 1#1
  let main_v35 : IVec S_ 1 := (fun x v => Host.reduce IntOp.andi x v reducesTo_S1280000_S_d0 h_S_) main_v34 main_c_13
  let main_v36 : IVec S_ 1 := andi main_v32 main_v35
  let main_c_14 : IVec S_ 32 := constantI S_ 32 0#32
  let main_v37 : IVec S1280000 32 := broadcastInDim S1280000 ![] bcast_S_S1280000 main_c_14
  let main_v38 : IVec S1280000 1 := cmpi .sge main_arg8 main_v37
  let main_c_15 : IVec S_ 1 := constantI S_ 1 1#1
  let main_v39 : IVec S_ 1 := (fun x v => Host.reduce IntOp.andi x v reducesTo_S1280000_S_d0 h_S_) main_v38 main_c_15
  let main_v40 : IVec S_ 1 := andi main_v36 main_v39
  let main_c_16 : IVec S_ 32 := constantI S_ 32 8#32
  let main_v41 : IVec S1280000 32 := broadcastInDim S1280000 ![] bcast_S_S1280000 main_c_16
  let main_v42 : IVec S1280000 1 := cmpi .slt main_arg8 main_v41
  let main_c_17 : IVec S_ 1 := constantI S_ 1 1#1
  let main_v43 : IVec S_ 1 := (fun x v => Host.reduce IntOp.andi x v reducesTo_S1280000_S_d0 h_S_) main_v42 main_c_17
  let main_v44 : IVec S_ 1 := andi main_v40 main_v43
  main_v44

def fn_part1 {F : FTy → Type} [FloatOps F] (main_arg4 : FVec F S192 .f32) (main_arg5 : FVec F S192 .f32) (main_arg6 : IVec S1280000 32) (main_arg8 : IVec S1280000 32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_c_10 : IVec S_ 32 := constantI S_ 32 0#32
  let main_v29 : IVec S1280000 32 := broadcastInDim S1280000 ![] bcast_S_S1280000 main_c_10
  let main_v30 : IVec S1280000 1 := cmpi .sge main_arg6 main_v29
  let main_c_11 : IVec S_ 1 := constantI S_ 1 1#1
  let main_v31 : IVec S_ 1 := (fun x v => Host.reduce IntOp.andi x v reducesTo_S1280000_S_d0 h_S_) main_v30 main_c_11
  let main_v32 : IVec S_ 1 := andi main_v28 main_v31
  let main_c_12 : IVec S_ 32 := constantI S_ 32 100000#32
  fn_part2 (F := F) main_arg6 main_arg8 main_v32 main_c_12

def fn {F : FTy → Type} [FloatOps F] (main_arg0 : FVec F S100000x64 .f32) (main_arg1 : FVec F S8x4096 .f32) (main_arg2 : FVec F S192x64 .f32) (main_arg3 : FVec F S192x64 .f32) (main_arg4 : FVec F S192 .f32) (main_arg5 : FVec F S192 .f32) (main_arg6 : IVec S1280000 32) (main_arg7 : IVec S1280000 32) (main_arg8 : IVec S1280000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S192x64 .f32 := Host.absf main_arg2
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg8 main_v13 main_v16
-- ==== Kernel.lean ====
abbrev S100000x64 : Shape := ⟨2, ![100000, 64]⟩
abbrev S8x4096 : Shape := ⟨2, ![8, 4096]⟩
abbrev S192x64 : Shape := ⟨2, ![192, 64]⟩
abbrev S192 : Shape := ⟨1, ![192]⟩
abbrev S1280000 : Shape := ⟨1, ![1280000]⟩
abbrev S8x64x64 : Shape := ⟨3, ![8, 64, 64]⟩
abbrev S64x8x64 : Shape := ⟨3, ![64, 8, 64]⟩
abbrev S64x512 : Shape := ⟨2, ![64, 512]⟩
abbrev S100000x512 : Shape := ⟨2, ![100000, 512]⟩
abbrev S5000x64 : Shape := ⟨2, ![5000, 64]⟩
abbrev S5000x512 : Shape := ⟨2, ![5000, 512]⟩
abbrev S800000x64 : Shape := ⟨2, ![800000, 64]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x64 : Shape := ⟨2, ![1280000, 64]⟩
abbrev S1x192 : Shape := ⟨2, ![1, 192]⟩
abbrev S4000x64 : Shape := ⟨2, ![4000, 64]⟩
abbrev S4000x192 : Shape := ⟨2, ![4000, 192]⟩

abbrev nBuf : Space → Nat
  | .hbm => 48
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S8x4096, .f32⟩
  | .hbm, ⟨2, _⟩ => ⟨S192x64, .f32⟩
  | .hbm, ⟨3, _⟩ => ⟨S192x64, .f32⟩
  | .hbm, ⟨4, _⟩ => ⟨S192, .f32⟩
  | .hbm, ⟨5, _⟩ => ⟨S192, .f32⟩
  | .hbm, ⟨6, _⟩ => ⟨S1280000, .i32⟩
  | .hbm, ⟨7, _⟩ => ⟨S1280000, .i32⟩
  | .hbm, ⟨8, _⟩ => ⟨S1280000, .i32⟩
  | .hbm, ⟨9, _⟩ => ⟨S8x64x64, .f32⟩
  | .hbm, ⟨10, _⟩ => ⟨S64x8x64, .f32⟩
  | .hbm, ⟨11, _⟩ => ⟨S64x512, .f32⟩
  | .hbm, ⟨12, _⟩ => ⟨S100000x512, .f32⟩
  | .hbm, ⟨13, _⟩ => ⟨S800000x64, .f32⟩
  | .hbm, ⟨14, _⟩ => ⟨S_, .i32⟩
  | .hbm, ⟨15, _⟩ => ⟨S1280000, .i32⟩
  | .hbm, ⟨16, _⟩ => ⟨S1280000, .i32⟩
  | .hbm, ⟨17, _⟩ => ⟨S1280000, .i32⟩
  | .hbm, ⟨18, _⟩ => ⟨S_, .i32⟩
  | .hbm, ⟨19, _⟩ => ⟨S1280000, .i32⟩
  | .hbm, ⟨20, _⟩ => ⟨S1280000, .i1⟩
  | .hbm, ⟨21, _⟩ => ⟨S_, .i32⟩
  | .hbm, ⟨22, _⟩ => ⟨S1280000, .i32⟩
  | .hbm, ⟨23, _⟩ => ⟨S1280000, .i32⟩
  | .hbm, ⟨24, _⟩ => ⟨S1280000, .i32⟩
  | .hbm, ⟨25, _⟩ => ⟨S1280000x1, .i32⟩
  | .hbm, ⟨26, _⟩ => ⟨S1, .i32⟩
  | .hbm, ⟨27, _⟩ => ⟨S_, .i32⟩
  | .hbm, ⟨28, _⟩ => ⟨S1280000x1, .i32⟩
  | .hbm, ⟨29, _⟩ => ⟨S1280000x1, .i1⟩
  | .hbm, ⟨30, _⟩ => ⟨S1x1, .i32⟩
  | .hbm, ⟨31, _⟩ => ⟨S1280000x1, .i32⟩
  | .hbm, ⟨32, _⟩ => ⟨S1280000x1, .i1⟩
  | .hbm, ⟨33, _⟩ => ⟨S1280000x1, .i1⟩
  | .hbm, ⟨34, _⟩ => ⟨S_, .i1⟩
  | .hbm, ⟨35, _⟩ => ⟨S1280000, .i1⟩
  | .hbm, ⟨36, _⟩ => ⟨S1280000x64, .f32⟩
  | .hbm, ⟨37, _⟩ => ⟨S1280000x64, .i1⟩
  | .hbm, ⟨38, _⟩ => ⟨S_, .f32⟩
  | .hbm, ⟨39, _⟩ => ⟨S1280000x64, .f32⟩
  | .hbm, ⟨40, _⟩ => ⟨S1280000x64, .f32⟩
  | .hbm, ⟨41, _⟩ => ⟨S_, .f32⟩
  | .hbm, ⟨42, _⟩ => ⟨S100000x64, .f32⟩
  | .hbm, ⟨43, _⟩ => ⟨S1280000x1, .i32⟩
  | .hbm, ⟨44, _⟩ => ⟨S100000x64, .f32⟩
  | .hbm, ⟨45, _⟩ => ⟨S1x192, .f32⟩
  | .hbm, ⟨46, _⟩ => ⟨S1x192, .f32⟩
  | .hbm, ⟨47, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x512, .f32⟩
  | .local _ .vmem, ⟨3, _⟩ => ⟨S5000x512, .f32⟩
  | .local _ .vmem, ⟨4, _⟩ => ⟨S5000x512, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S192x64, .f32⟩
  | .local _ .vmem, ⟨10, _⟩ => ⟨S192x64, .f32⟩
  | .local _ .vmem, ⟨11, _⟩ => ⟨S1x192, .f32⟩
  | .local _ .vmem, ⟨12, _⟩ => ⟨S1x192, .f32⟩
  | .local _ .vmem, ⟨13, _⟩ => ⟨S4000x64, .f32⟩
  | .local _ .vmem, ⟨14, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S8x4096_S8x64x64 : S8x4096.ShapeCasts S8x64x64
  transposes_S8x64x64_S64x8x64_2_0_1 : S8x64x64.Transposes [2, 0, 1] S64x8x64
  shapeCasts_S64x8x64_S64x512 : S64x8x64.ShapeCasts S64x512
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S5000x512_S5000x512_0_0 : ∀ a, (![0, 0] : Fin 2 → Nat) a + S5000x512.size a ≤ S5000x512.size a
  h_S5000x512 : 0 < S5000x512.numel
  shapeCasts_S100000x512_S800000x64 : S100000x512.ShapeCasts S800000x64
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  bcast_S_S100000x64 : S_.BroadcastsInDim S100000x64 (![] : Fin 0 → Fin S100000x64.rank)
  shapeCasts_S192_S1x192 : S192.ShapeCasts S1x192
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S192x64_S192x64_0_0 : ∀ a, (![0, 0] : Fin 2 → Nat) a + S192x64.size a ≤ S192x64.size a
  h_S192x64 : 0 < S192x64.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4000x192 : S1x192.Broadcasts S4000x192
  slices_S4000x192_o0_0_S4000x64 : S4000x192.Slices ![0, 0] S4000x64
  slices_S4000x192_o0_64_S4000x64 : S4000x192.Slices ![0, 64] S4000x64
  slices_S4000x192_o0_128_S4000x64 : S4000x192.Slices ![0, 128] S4000x64
  dot_S5000x64_S64x512_S5000x512_1_0_0_1_n_n_wf : DotDims.WF S5000x64 S64x512 S5000x512 [1] [0] [0] [1] [] []
  gather_S800000x64_S1280000x1_S1280000x64_1_0_n_n_0_1_164_wf : GatherDims.WF S800000x64 S1280000x1 S1280000x64 [1] [0] [] [0] [] 1 ![1, 64]
  scatter_S100000x64_S1280000x1_S1280000x64_1_0_0_1_wf : ScatterDims.WF S100000x64 S1280000x1 S1280000x64 [1] [0] [0] 1
  dot_S4000x64_S192x64_S4000x192_1_1_0_0_n_n_wf : DotDims.WF S4000x64 S192x64 S4000x192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S100000x512.size a
  hwx0_2 : ∀ i : grid0.Coords, EltTy.bits .f32 = 32 ∨ (Rect.block (s := S100000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x64.size a ≤ S192x64.size a
  hwx1_2 : ∀ i : grid1.Coords, EltTy.bits .f32 = 32 ∨ (Rect.block (s := S192x64) S192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x64.size a ≤ S192x64.size a
  hwx1_3 : ∀ i : grid1.Coords, EltTy.bits .f32 = 32 ∨ (Rect.block (s := S192x64) S192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf
def gather_S800000x64_S1280000x1_S1280000x64_1_0_n_n_0_1_164 : GatherDims S800000x64 S1280000x1 S1280000x64 where
  offsetDims := [1]
  collapsedSliceDims := [0]
  operandBatchingDims := []
  startIndicesBatchingDims := []
  startIndexMap := [0]
  indexVectorDim := 1
  sliceSizes := ![1, 64]
  wf := gather_S800000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S4000x64_S192x64_S4000x192_1_1_0_0_n_n : DotDims S4000x64 S192x64 S4000x192 where
  lhsContracting := [1]
  rhsContracting := [1]
  lhsNonContracting := [0]
  rhsNonContracting := [0]
  lhsBatch := []
  rhsBatch := []
  wf := dot_S4000x64_S192x64_S4000x192_1_1_0_0_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S8x4096 : Shape := ⟨2, ![8, 4096]⟩
abbrev S192x64 : Shape := ⟨2, ![192, 64]⟩
abbrev S192 : Shape := ⟨1, ![192]⟩
abbrev S1280000 : Shape := ⟨1, ![1280000]⟩
abbrev S8x64x64 : Shape := ⟨3, ![8, 64, 64]⟩
abbrev S100000x8x64 : Shape := ⟨3, ![100000, 8, 64]⟩
abbrev S8x100000x64 : Shape := ⟨3, ![8, 100000, 64]⟩
abbrev S_ : Shape := ⟨0, ![]⟩
abbrev S1280000x1 : Shape := ⟨2, ![1280000, 1]⟩
abbrev S1280000x2 : Shape := ⟨2, ![1280000, 2]⟩
abbrev S1280000x64 : Shape := ⟨2, ![1280000, 64]⟩
abbrev S64x192 : Shape := ⟨2, ![64, 192]⟩
abbrev S100000x192 : Shape := ⟨2, ![100000, 192]⟩
abbrev S1x192 : Shape := ⟨2, ![1, 192]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S8x4096, .f32⟩
  | .hbm, ⟨2, _⟩ => ⟨S192x64, .f32⟩
  | .hbm, ⟨3, _⟩ => ⟨S192x64, .f32⟩
  | .hbm, ⟨4, _⟩ => ⟨S192, .f32⟩
  | .hbm, ⟨5, _⟩ => ⟨S192, .f32⟩
  | .hbm, ⟨6, _⟩ => ⟨S1280000, .i32⟩
  | .hbm, ⟨7, _⟩ => ⟨S1280000, .i32⟩
  | .hbm, ⟨8, _⟩ => ⟨S1280000, .i32⟩
  | .hbm, ⟨9, _⟩ => ⟨S8x64x64, .f32⟩
  | .hbm, ⟨10, _⟩ => ⟨S100000x8x64, .f32⟩
  | .hbm, ⟨11, _⟩ => ⟨S8x100000x64, .f32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S_, .i32⟩
  | .hbm, ⟨20, _⟩ => ⟨S1280000, .i32⟩
  | .hbm, ⟨21, _⟩ => ⟨S1280000, .i1⟩
  | .hbm, ⟨22, _⟩ => ⟨S_, .i32⟩
  | .hbm, ⟨23, _⟩ => ⟨S1280000, .i32⟩
  | .hbm, ⟨24, _⟩ => ⟨S1280000, .i32⟩
  | .hbm, ⟨25, _⟩ => ⟨S1280000, .i32⟩
  | .hbm, ⟨26, _⟩ => ⟨S1280000x1, .i32⟩
  | .hbm, ⟨27, _⟩ => ⟨S1280000x1, .i32⟩
  | .hbm, ⟨28, _⟩ => ⟨S1280000x2, .i32⟩
  | .hbm, ⟨29, _⟩ => ⟨S1280000x64, .f32⟩
  | .hbm, ⟨30, _⟩ => ⟨S_, .f32⟩
  | .hbm, ⟨31, _⟩ => ⟨S100000x64, .f32⟩
  | .hbm, ⟨32, _⟩ => ⟨S1280000x1, .i32⟩
  | .hbm, ⟨33, _⟩ => ⟨S100000x64, .f32⟩
  | .hbm, ⟨34, _⟩ => ⟨S64x192, .f32⟩
  | .hbm, ⟨35, _⟩ => ⟨S100000x192, .f32⟩
  | .hbm, ⟨36, _⟩ => ⟨S1x192, .f32⟩
  | .hbm, ⟨37, _⟩ => ⟨S100000x192, .f32⟩
  | .hbm, ⟨38, _⟩ => ⟨S100000x192, .f32⟩
  | .hbm, ⟨39, _⟩ => ⟨S64x192, .f32⟩
  | .hbm, ⟨40, _⟩ => ⟨S100000x192, .f32⟩
  | .hbm, ⟨41, _⟩ => ⟨S1x192, .f32⟩
  | .hbm, ⟨42, _⟩ => ⟨S100000x192, .f32⟩
  | .hbm, ⟨43, _⟩ => ⟨S100000x192, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  shapeCasts_S8x4096_S8x64x64 : S8x4096.ShapeCasts S8x64x64
  transposes_S100000x8x64_S8x100000x64_1_0_2 : S100000x8x64.Transposes [1, 0, 2] S8x100000x64
  bcast_S_S1280000 : S_.BroadcastsInDim S1280000 (![] : Fin 0 → Fin S1280000.rank)
  bcast_S1280000_S1280000x1_0 : S1280000.BroadcastsInDim S1280000x1 (![0] : Fin 1 → Fin S1280000x1.rank)
  concatenates_S1280000x1_S1280000x1_S1280000x2_d1 : Shape.Concatenates [S1280000x1, S1280000x1] S1280000x2 1
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  dot_S100000x64_S8x64x64_S100000x8x64_1_2_0_01_n_n_wf : DotDims.WF S100000x64 S8x64x64 S100000x8x64 [1] [2] [0] [0, 1] [] []
  gather_S8x100000x64_S1280000x2_S1280000x64_1_01_n_n_01_1_1164_wf : GatherDims.WF S8x100000x64 S1280000x2 S1280000x64 [1] [0, 1] [] [0, 1] [] 1 ![1, 1, 64]
  scatter_S100000x64_S1280000x1_S1280000x64_1_0_0_1_wf : ScatterDims.WF S100000x64 S1280000x1 S1280000x64 [1] [0] [0] 1
  dot_S100000x64_S64x192_S100000x192_1_0_0_1_n_n_wf : DotDims.WF S100000x64 S64x192 S100000x192 [1] [0] [0] [1] [] []

variable [Facts₀]

def dot_S100000x64_S8x64x64_S100000x8x64_1_2_0_01_n_n : DotDims S100000x64 S8x64x64 S100000x8x64 where
  lhsContracting := [1]
  rhsContracting := [2]
  lhsNonContracting := [0]
  rhsNonContracting := [0, 1]
  lhsBatch := []
  rhsBatch := []
  wf := dot_S100000x64_S8x64x64_S100000x8x64_1_2_0_01_n_n_wf
def gather_S8x100000x64_S1280000x2_S1280000x64_1_01_n_n_01_1_1164 : GatherDims S8x100000x64 S1280000x2 S1280000x64 where
  offsetDims := [1]
  collapsedSliceDims := [0, 1]
  operandBatchingDims := []
  startIndicesBatchingDims := []
  startIndexMap := [0, 1]
  indexVectorDim := 1
  sliceSizes := ![1, 1, 64]
  wf := gather_S8x100000x64_S1280000x2_S1280000x64_1_01_n_n_01_1_1164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.PreDecode.lean ====
/-
  The precondition read back: every source-node word lies in [0, 100000) and every edge-type word in [0, 8).

  The printed predicate is a conjunction of one-bit words, one per `all` of a comparison array; the claim states it is 1.
  A conjunction that is 1 has every conjunct 1; an `all` that is 1 has a 1 at every index; and a word that compares, signed,
  at least 0 and below a small literal n is below n read unsigned.
-/
import proofs.«401008_j38878043963480_3_alg».proof.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A word that is, read signed, at least 0 and below the small literal n is below n read unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have a0 := IntOp.cmpi_sge.1 h0
  have a1 := IntOp.cmpi_slt.1 h1
  rw [show (0#32 : BitVec 32).toInt = 0 from by decide] at a0
  rw [StableHlo.Predicate.toInt_ofNat_small n hn] at a1
  have hw : 2 * w.toNat < 2 ^ 32 := BitVec.toInt_pos_iff.1 a0
  rw [BitVec.toInt_eq_toNat_of_lt hw] at a1
  exact_mod_cast a1

variable [Facts]

/-- THE PRECONDITION DECODED: the ranges of the source-node words and of the edge-type words. -/
theorem ranges {F : FTy → Type} [FloatOps F] (a0 : FVec F S100000x64 .f32) (a1 : FVec F S8x4096 .f32) (a2 a3 : FVec F S192x64 .f32)
    (a4 a5 : FVec F S192 .f32) (a6 a7 a8 : IVec S1280000 32)
    (h : fn (F := F) a0 a1 a2 a3 a4 a5 a6 a7 a8 = fun _ => 1#1) :
    (∀ e : Fin 1280000, (a6 (ix1 e)).toNat < 100000) ∧ (∀ e : Fin 1280000, (a8 (ix1 e)).toNat < 8) := by
  have e := congrFun h ix0
  unfold fn fn_part1 fn_part2 at e
  dsimp only at e
  obtain ⟨e3, h43⟩ := IntOp.andi_eq_one.1 (show IntOp.andi _ _ = 1#1 from e)
  obtain ⟨e2, h39⟩ := IntOp.andi_eq_one.1 (show IntOp.andi _ _ = 1#1 from e3)
  obtain ⟨e1, h35⟩ := IntOp.andi_eq_one.1 (show IntOp.andi _ _ = 1#1 from e2)
  obtain ⟨-, h31⟩ := IntOp.andi_eq_one.1 (show IntOp.andi _ _ = 1#1 from e1)
  refine ⟨fun k => ?_, fun k => ?_⟩
  · exact toNat_lt_of_signed _ 100000 (by decide)
      (Host.reduce_andi_all _ _ _ _ _ h31 (ix1 k)) (Host.reduce_andi_all _ _ _ _ _ h35 (ix1 k))
  · exact toNat_lt_of_signed _ 8 (by decide)
      (Host.reduce_andi_all _ _ _ _ _ h39 (ix1 k)) (Host.reduce_andi_all _ _ _ _ _ h43 (ix1 k))

end Cert.PreDecode

end
-- ==== Proof.KernelHost.lean ====
/-
  The host operations of the kernel program between its two regions, read as values.

  Between the regions the program reshapes the node-message array [100000, 512] to one row per (node, type) pair
  [800000, 64], forms the flat row index 8·src + type of every edge, reads those rows (a row gather whose result is kept
  where the index lies inside the table), sums the rows per destination node (the host's scatter-add into zeros), and lays
  the two gate biases out as rows [1, 192].  Here each buffer the second region reads is written as that function of the
  buffers before it; the arguments no operation writes are read back to the launch contents.
-/
import proofs.«401008_j38878043963480_3_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments as each region finds them -/

theorem W1_arg0 (c : Dev nD) : W1 m ρ c (Proc.devRef .tc main_arg0) = m ((c : Thread nD τ).loc main_arg0) := by
  after_results <;> rfl

theorem W2_arg6 (c : Dev nD) : W2 m ρ c (Proc.devRef .tc main_arg6) = m ((c : Thread nD τ).loc main_arg6) :=
  (W2_of_ne m ρ c main_arg6 (by decide)).trans (by after_results <;> rfl)
theorem W2_arg7 (c : Dev nD) : W2 m ρ c (Proc.devRef .tc main_arg7) = m ((c : Thread nD τ).loc main_arg7) :=
  (W2_of_ne m ρ c main_arg7 (by decide)).trans (by after_results <;> rfl)
theorem W2_arg8 (c : Dev nD) : W2 m ρ c (Proc.devRef .tc main_arg8) = m ((c : Thread nD τ).loc main_arg8) :=
  (W2_of_ne m ρ c main_arg8 (by decide)).trans (by after_results <;> rfl)
theorem W2_arg2 (c : Dev nD) : W2 m ρ c (Proc.devRef .tc main_arg2) = m ((c : Thread nD τ).loc main_arg2) :=
  (W2_of_ne m ρ c main_arg2 (by decide)).trans (by after_results <;> rfl)
theorem W2_arg3 (c : Dev nD) : W2 m ρ c (Proc.devRef .tc main_arg3) = m ((c : Thread nD τ).loc main_arg3) :=
  (W2_of_ne m ρ c main_arg3 (by decide)).trans (by after_results <;> rfl)
theorem W2_arg4 (c : Dev nD) : W2 m ρ c (Proc.devRef .tc main_arg4) = m ((c : Thread nD τ).loc main_arg4) :=
  (W2_of_ne m ρ c main_arg4 (by decide)).trans (by after_results <;> rfl)
theorem W2_arg5 (c : Dev nD) : W2 m ρ c (Proc.devRef .tc main_arg5) = m ((c : Thread nD τ).loc main_arg5) :=
  (W2_of_ne m ρ c main_arg5 (by decide)).trans (by after_results <;> rfl)
/-- The node states are the first region's first window: it reads them and writes nothing back. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

theorem W5_arg0 (c : Dev nD) : W5 m ρ c (Proc.devRef .tc main_arg0) = m ((c : Thread nD τ).loc main_arg0) := by
  refine Eq.trans ?_ (W2_arg0 m ρ c)
  after_results <;> rfl
theorem W5_arg2 (c : Dev nD) : W5 m ρ c (Proc.devRef .tc main_arg2) = m ((c : Thread nD τ).loc main_arg2) := by
  refine Eq.trans ?_ (W2_arg2 m ρ c)
  after_results <;> rfl
theorem W5_arg3 (c : Dev nD) : W5 m ρ c (Proc.devRef .tc main_arg3) = m ((c : Thread nD τ).loc main_arg3) := by
  refine Eq.trans ?_ (W2_arg3 m ρ c)
  after_results <;> rfl
theorem W4_arg7 (c : Dev nD) : W4 m ρ c (Proc.devRef .tc main_arg7) = m ((c : Thread nD τ).loc main_arg7) := by
  refine Eq.trans ?_ (W2_arg7 m ρ c)
  after_results <;> rfl
theorem W4_arg4 (c : Dev nD) : W4 m ρ c (Proc.devRef .tc main_arg4) = m ((c : Thread nD τ).loc main_arg4) := by
  refine Eq.trans ?_ (W2_arg4 m ρ c)
  after_results <;> rfl
theorem W4_arg5 (c : Dev nD) : W4 m ρ c (Proc.devRef .tc main_arg5) = m ((c : Thread nD τ).loc main_arg5) := by
  refine Eq.trans ?_ (W2_arg5 m ρ c)
  after_results <;> rfl

/-! ## The lane-folded matrix the first region multiplies by -/

/-- W[k, 64·t + q] = A[t][q, k]: the edge matrices reshaped to [8, 64, 64], the contraction axis moved to the front, the
    type and lane axes folded into one. -/
theorem W1_v2 (c : Dev nD) : (W1 m ρ c (Proc.devRef .tc main_v2) : S64x512.Idx → EReal)
    = shapeCast S64x512 (transpose S64x8x64 [2, 0, 1] (shapeCast S8x64x64 (m ((c : Thread nD τ).loc main_arg1) : S8x4096.Idx → EReal) shapeCasts_S8x4096_S8x64x64)
        transposes_S8x64x64_S64x8x64_2_0_1) shapeCasts_S64x8x64_S64x512 := by
  after_results <;> rfl

/-! ## Between the regions -/

/-- The row-per-(node, type) view of the node messages, and the flat row index 8·src + type. -/
theorem W3_v4 (c : Dev nD) : (W3 m ρ c (Proc.devRef .tc main_v4) : S800000x64.Idx → EReal)
    = shapeCast S800000x64 (W2 m ρ c (Proc.devRef .tc main_v3) : S100000x512.Idx → EReal) shapeCasts_S100000x512_S800000x64 := by
  show StableHlo.after hostOps1 (W2 m ρ c) (Proc.devRef .tc main_v4) = _
  generalize W2 m ρ c = X
  after_results <;> rfl

theorem W3_v7 (c : Dev nD) : (W3 m ρ c (Proc.devRef .tc main_v7) : IVec S1280000 32)
    = addi (muli (m ((c : Thread nD τ).loc main_arg6) : IVec S1280000 32) (broadcastInDim S1280000 ![] bcast_S_S1280000 (constantI S_ 32 8#32)))
        (m ((c : Thread nD τ).loc main_arg8) : IVec S1280000 32) := by
  rw [← W2_arg6 m ρ c, ← W2_arg8 m ρ c]
  show StableHlo.after hostOps1 (W2 m ρ c) (Proc.devRef .tc main_v7) = _
  generalize W2 m ρ c = X
  after_results <;> rfl

/-- Running two stretches of host operations one after the other. -/
theorem after_append (l₁ l₂ : List (HloOp τ sig (Elt Ideal))) :
    ∀ V : Valuation τ sig (Elt Ideal), StableHlo.after (l₁ ++ l₂) V = StableHlo.after l₂ (StableHlo.after l₁ V) := by
  induction l₁ with
  | nil => intro V; rfl
  | cons op l ih => intro V; exact ih _

/-- The outlined `take` in three stretches: the wrap of negative indices and the index column; the test that a wrapped index
    lies inside the table; the gather, the fill and the choice between them. -/
abbrev takeOps₁ : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1280000, .i32⟩) (broadcastInDim S1280000 ![] bcast_S_S1280000),
    StableHlo.TRef.binary (.of main_v7 : StableHlo.TRef sig ⟨S1280000, .i32⟩) (.of main_call0_v0 : StableHlo.TRef sig ⟨S1280000, .i32⟩) (.of main_call0_v1 : StableHlo.TRef sig ⟨S1280000, .i1⟩) (cmpi .slt),
    StableHlo.TRef.nullary (.of main_call0_c_0 : StableHlo.TRef sig ⟨S_, .i32⟩) (constantI S_ 32 800000#32),
    StableHlo.TRef.unary (.of main_call0_c_0 : StableHlo.TRef sig ⟨S_, .i32⟩) (.of main_call0_v2 : StableHlo.TRef sig ⟨S1280000, .i32⟩) (broadcastInDim S1280000 ![] bcast_S_S1280000),
    StableHlo.TRef.binary (.of main_v7 : StableHlo.TRef sig ⟨S1280000, .i32⟩) (.of main_call0_v2 : StableHlo.TRef sig ⟨S1280000, .i32⟩) (.of main_call0_v3 : StableHlo.TRef sig ⟨S1280000, .i32⟩) addi,
    StableHlo.TRef.ternary (.of main_call0_v1 : StableHlo.TRef sig ⟨S1280000, .i1⟩) (.of main_call0_v3 : StableHlo.TRef sig ⟨S1280000, .i32⟩) (.of main_v7 : StableHlo.TRef sig ⟨S1280000, .i32⟩) (.of main_call0_v4 : StableHlo.TRef sig ⟨S1280000, .i32⟩) select,
    StableHlo.TRef.unary main_call0_call0.v0 (.of main_call0_v5 : StableHlo.TRef sig ⟨S1280000x1, .i32⟩) (broadcastInDim S1280000x1 ![0] bcast_S1280000_S1280000x1_0) ]
abbrev takeOps₂ : List (HloOp τ sig (Elt Ideal)) :=
  [ StableHlo.TRef.nullary (.of main_call0_c_1 : StableHlo.TRef sig ⟨S1, .i32⟩) (constantI S1 32 799999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1280000x1, .i32⟩) (broadcastInDim S1280000x1 ![] bcast_S_S1280000x1),
    StableHlo.TRef.binary (.of main_call0_v5 : StableHlo.TRef sig ⟨S1280000x1, .i32⟩) (.of main_call0_v6 : StableHlo.TRef sig ⟨S1280000x1, .i32⟩) (.of main_call0_v7 : StableHlo.TRef sig ⟨S1280000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1280000x1, .i32⟩) (broadcastInDim S1280000x1 ![0, 1] bcast_S1x1_S1280000x1_0_1),
    StableHlo.TRef.binary (.of main_call0_v5 : StableHlo.TRef sig ⟨S1280000x1, .i32⟩) (.of main_call0_v9 : StableHlo.TRef sig ⟨S1280000x1, .i32⟩) (.of main_call0_v10 : StableHlo.TRef sig ⟨S1280000x1, .i1⟩) (cmpi .sle),
    StableHlo.TRef.binary (.of main_call0_v7 : StableHlo.TRef sig ⟨S1280000x1, .i1⟩) (.of main_call0_v10 : StableHlo.TRef sig ⟨S1280000x1, .i1⟩) (.of main_call0_v11 : StableHlo.TRef sig ⟨S1280000x1, .i1⟩) andi,
    StableHlo.TRef.nullary (.of main_call0_c_3 : StableHlo.TRef sig ⟨S_, .i1⟩) (constantI S_ 1 1#1),
    StableHlo.TRef.binary (.of main_call0_v11 : StableHlo.TRef sig ⟨S1280000x1, .i1⟩) (.of main_call0_c_3 : StableHlo.TRef sig ⟨S_, .i1⟩) (.of main_call0_v12 : StableHlo.TRef sig ⟨S1280000, .i1⟩) (fun x v => Host.reduce IntOp.andi x v reducesTo_S1280000x1_S1280000_d1 h_S_) ]
abbrev takeOps₃ : List (HloOp τ sig (Elt Ideal)) :=
  [ StableHlo.TRef.binary (.of main_v4 : StableHlo.TRef sig ⟨S800000x64, .f32⟩) (.of main_call0_v5 : StableHlo.TRef sig ⟨S1280000x1, .i32⟩) (.of main_call0_v13 : StableHlo.TRef sig ⟨S1280000x64, .f32⟩) (fun x i => Host.gather gather_S800000x64_S1280000x1_S1280000x64_1_0_n_n_0_1_164 x i),
    StableHlo.TRef.unary (.of main_call0_v12 : StableHlo.TRef sig ⟨S1280000, .i1⟩) (.of main_call0_v14 : StableHlo.TRef sig ⟨S1280000x64, .i1⟩) (broadcastInDim S1280000x64 ![0] bcast_S1280000_S1280000x64_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1280000x64, .f32⟩) (broadcastInDim S1280000x64 ![] bcast_S_S1280000x64),
    StableHlo.TRef.ternary (.of main_call0_v14 : StableHlo.TRef sig ⟨S1280000x64, .i1⟩) (.of main_call0_v13 : StableHlo.TRef sig ⟨S1280000x64, .f32⟩) (.of main_call0_v15 : StableHlo.TRef sig ⟨S1280000x64, .f32⟩) (.of main_v8 : StableHlo.TRef sig ⟨S1280000x64, .f32⟩) select ]
theorem take_split : (hostOps1_1 : List (HloOp τ sig (Elt Ideal))) = takeOps₁ ++ (takeOps₂ ++ takeOps₃) := rfl

/-- The column [1280000, 1] of row indices, a negative one wrapped by the table's height 800000. -/
def wrapCol (idx : IVec S1280000 32) : IVec S1280000x1 32 :=
  broadcastInDim S1280000x1 ![0] bcast_S1280000_S1280000x1_0
    (select (cmpi .slt idx (broadcastInDim S1280000 ![] bcast_S_S1280000 (constantI S_ 32 0#32)))
      (addi idx (broadcastInDim S1280000 ![] bcast_S_S1280000 (constantI S_ 32 800000#32))) idx)

/-- Per row index, whether it lies in [0, 799999]. -/
def insideOf (col : IVec S1280000x1 32) : IVec S1280000 1 :=
  Host.reduce IntOp.andi
    (andi (cmpi .sge col (broadcastInDim S1280000x1 ![] bcast_S_S1280000x1 (constantI S_ 32 0#32)))
      (cmpi .sle col (broadcastInDim S1280000x1 ![0, 1] bcast_S1x1_S1280000x1_0_1 (broadcastInDim S1x1 ![1] bcast_S1_S1x1_1 (constantI S1 32 799999#32)))))
    (constantI S_ 1 1#1) reducesTo_S1280000x1_S1280000_d1 h_S_

/-- The rows of a table [800000, 64] at a list of row indices, as jnp's `take` computes them: a negative index is wrapped by
    the table's height, the rows are gathered at the wrapped indices, and a row is kept where its wrapped index lies in
    [0, 799999] and filled with the quiet-NaN word elsewhere. -/
def takeRows (x : FVec Ideal S800000x64 .f32) (idx : IVec S1280000 32) : FVec Ideal S1280000x64 .f32 :=
  select (broadcastInDim S1280000x64 ![0] bcast_S1280000_S1280000x64_0 (insideOf (wrapCol idx)))
    (Host.gather gather_S800000x64_S1280000x1_S1280000x64_1_0_n_n_0_1_164 x (wrapCol idx))
    (broadcastInDim S1280000x64 ![] bcast_S_S1280000x64 (constant S_ .f32 0x7FC00000#32))

-- the conjunction over 1280000 columns is compared as a whole, never run
attribute [local irreducible] Host.reduce

theorem take_stage₁ (X : Valuation τ sig (Elt Ideal)) :
    (StableHlo.after takeOps₁ X (Proc.devRef .tc main_call0_v5) : IVec S1280000x1 32) = wrapCol (X (Proc.devRef .tc main_v7) : IVec S1280000 32) := by
  unfold wrapCol
  after_results <;> rfl
theorem take_stage₁_v4 (X : Valuation τ sig (Elt Ideal)) :
    StableHlo.after takeOps₁ X (Proc.devRef .tc main_v4) = X (Proc.devRef .tc main_v4) := by
  after_results <;> rfl
theorem take_stage₂ (Y : Valuation τ sig (Elt Ideal)) :
    (StableHlo.after takeOps₂ Y (Proc.devRef .tc main_call0_v12) : IVec S1280000 1) = insideOf (Y (Proc.devRef .tc main_call0_v5) : IVec S1280000x1 32) := by
  unfold insideOf
  after_results <;> rfl
theorem take_stage₂_v5 (Y : Valuation τ sig (Elt Ideal)) :
    StableHlo.after takeOps₂ Y (Proc.devRef .tc main_call0_v5) = Y (Proc.devRef .tc main_call0_v5) := by
  after_results <;> rfl
theorem take_stage₂_v4 (Y : Valuation τ sig (Elt Ideal)) :
    StableHlo.after takeOps₂ Y (Proc.devRef .tc main_v4) = Y (Proc.devRef .tc main_v4) := by
  after_results <;> rfl
theorem take_stage₃ (Z : Valuation τ sig (Elt Ideal)) :
    (StableHlo.after takeOps₃ Z (Proc.devRef .tc main_v8) : S1280000x64.Idx → EReal)
      = select (broadcastInDim S1280000x64 ![0] bcast_S1280000_S1280000x64_0 (Z (Proc.devRef .tc main_call0_v12) : IVec S1280000 1))
          (Host.gather gather_S800000x64_S1280000x1_S1280000x64_1_0_n_n_0_1_164 (Z (Proc.devRef .tc main_v4) : S800000x64.Idx → EReal) (Z (Proc.devRef .tc main_call0_v5) : IVec S1280000x1 32))
          (broadcastInDim S1280000x64 ![] bcast_S_S1280000x64 (constant (F := Ideal) S_ .f32 0x7FC00000#32)) := by
  after_results <;> rfl

/-- The gathered rows after the outlined `take`, from any contents before it. -/
theorem after_take (X : Valuation τ sig (Elt Ideal)) :
    (StableHlo.after hostOps1_1 X (Proc.devRef .tc main_v8) : S1280000x64.Idx → EReal)
      = takeRows (X (Proc.devRef .tc main_v4) : S800000x64.Idx → EReal) (X (Proc.devRef .tc main_v7) : IVec S1280000 32) := by
  rw [take_split, after_append, after_append, take_stage₃, take_stage₂, take_stage₂_v5, take_stage₂_v4, take_stage₁, take_stage₁_v4]
  rfl

theorem W4_v8 (c : Dev nD) : (W4 m ρ c (Proc.devRef .tc main_v8) : S1280000x64.Idx → EReal)
    = takeRows (W3 m ρ c (Proc.devRef .tc main_v4) : S800000x64.Idx → EReal) (W3 m ρ c (Proc.devRef .tc main_v7) : IVec S1280000 32) :=
  after_take (W3 m ρ c)

/-- The aggregated messages: the gathered rows summed per destination node into zeros. -/
theorem W5_v11 (c : Dev nD) : (W5 m ρ c (Proc.devRef .tc main_v11) : S100000x64.Idx → EReal)
    = Host.scatterAdd scatter_S100000x64_S1280000x1_S1280000x64_1_0_0_1
        (broadcastInDim S100000x64 ![] bcast_S_S100000x64 (constant (F := Ideal) S_ .f32 0x00000000#32))
        (broadcastInDim S1280000x1 ![0] bcast_S1280000_S1280000x1_0 (m ((c : Thread nD τ).loc main_arg7) : IVec S1280000 32))
        (W4 m ρ c (Proc.devRef .tc main_v8) : S1280000x64.Idx → EReal) := by
  rw [← W4_arg7 m ρ c]
  show StableHlo.after hostOps1_2 (W4 m ρ c) (Proc.devRef .tc main_v11) = _
  generalize W4 m ρ c = X
  after_results <;> rfl

/-- The gate biases as rows. -/
theorem W5_v12 (c : Dev nD) : (W5 m ρ c (Proc.devRef .tc main_v12) : S1x192.Idx → EReal)
    = shapeCast S1x192 (m ((c : Thread nD τ).loc main_arg4) : S192.Idx → EReal) shapeCasts_S192_S1x192 := by
  rw [← W4_arg4 m ρ c]
  show StableHlo.after hostOps1_2 (W4 m ρ c) (Proc.devRef .tc main_v12) = _
  generalize W4 m ρ c = X
  after_results <;> rfl
theorem W5_v13 (c : Dev nD) : (W5 m ρ c (Proc.devRef .tc main_v13) : S1x192.Idx → EReal)
    = shapeCast S1x192 (m ((c : Thread nD τ).loc main_arg5) : S192.Idx → EReal) shapeCasts_S192_S1x192 := by
  rw [← W4_arg5 m ρ c]
  show StableHlo.after hostOps1_2 (W4 m ρ c) (Proc.devRef .tc main_v13) = _
  generalize W4 m ρ c = X
  after_results <;> rfl

end Cert.KernelIdeal.HostValue

end
-- ==== Proof.KernelHt.lean ====
/-
  What the first region leaves in its output array: every node's messages of all eight types side by side.

  The region walks the node rows in 20 blocks of 5000.  At a block it multiplies the block of node states [5000, 64] by
  the whole lane-folded matrix W [64, 512] into a zero accumulator and stores the product whole, so entry (r, c) of the
  output array [100000, 512] is  ∑ₖ h[r, k] · W[k, c]  — the rounding of the operands to bf16 is the identity on the
  extended reals.  The blocks tile the array: row r lies in block r / 5000.
-/
import proofs.«401008_j38878043963480_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HtValue

open Cert.KernelIdeal Cert.KernelIdeal.Gen
open Idealize.ShloMosaic Idealize.ShloMosaic.TcCoe Idealize.ShloMosaic.ValueIdx Idealize.SL.Sem
open Idealize.ShloMosaic.Pipeline (Dat)

/-! ## The product at an entry -/

theorem lhs_ax0 (i : S5000x512.Idx) (q : dot_S5000x64_S64x512_S5000x512_1_0_0_1_n_n.contr.Idx) :
    (dot_S5000x64_S64x512_S5000x512_1_0_0_1_n_n.lhsIdx i q 0).val = (i 0).val := by
  unfold DotDims.lhsIdx
  rw [dif_neg (show ¬(0 : Fin S5000x64.rank) ∈ dot_S5000x64_S64x512_S5000x512_1_0_0_1_n_n.lhsBatch by decide), dif_pos (show (0 : Fin S5000x64.rank) ∈ dot_S5000x64_S64x512_S5000x512_1_0_0_1_n_n.lhsNonContracting by decide)]
  rfl
theorem lhs_ax1 (i : S5000x512.Idx) (q : dot_S5000x64_S64x512_S5000x512_1_0_0_1_n_n.contr.Idx) :
    (dot_S5000x64_S64x512_S5000x512_1_0_0_1_n_n.lhsIdx i q 1).val = (q ⟨0, by decide⟩).val :=
  dot_S5000x64_S64x512_S5000x512_1_0_0_1_n_n.lhsIdx_val_of_single rfl i q
theorem rhs_ax0 (i : S5000x512.Idx) (q : dot_S5000x64_S64x512_S5000x512_1_0_0_1_n_n.contr.Idx) :
    (dot_S5000x64_S64x512_S5000x512_1_0_0_1_n_n.rhsIdx i q 0).val = (q ⟨0, by decide⟩).val :=
  dot_S5000x64_S64x512_S5000x512_1_0_0_1_n_n.rhsIdx_val_of_single rfl i q
theorem rhs_ax1 (i : S5000x512.Idx) (q : dot_S5000x64_S64x512_S5000x512_1_0_0_1_n_n.contr.Idx) :
    (dot_S5000x64_S64x512_S5000x512_1_0_0_1_n_n.rhsIdx i q 1).val = (i 1).val := by
  unfold DotDims.rhsIdx
  rw [dif_neg (show ¬(1 : Fin S64x512.rank) ∈ dot_S5000x64_S64x512_S5000x512_1_0_0_1_n_n.rhsBatch by decide), dif_pos (show (1 : Fin S64x512.rank) ∈ dot_S5000x64_S64x512_S5000x512_1_0_0_1_n_n.rhsNonContracting by decide)]
  rfl

/-- Entry (p, q) of the block product: row p of the state block against column q of the matrix. -/
theorem prod_apply (x0 : Vec Ideal S5000x64 .f32) (x1 : Vec Ideal S64x512 .f32) (p : Fin 5000) (q : Fin 512) :
    k0_pay1 (F := Ideal) x0 x1 (ix2 p q) = ∑ k : Fin 64, x0 (ix2 p k) * x1 (ix2 k q) := by
  unfold k0_pay1
  refine (Ideal.matmul_constant_zero_apply dot_S5000x64_S64x512_S5000x512_1_0_0_1_n_n none _ _ (ix2 p q)).trans ?_
  rw [← Equiv.sum_comp (contrEquiv1 dot_S5000x64_S64x512_S5000x512_1_0_0_1_n_n 64 rfl rfl).symm]
  refine Finset.sum_congr rfl fun k _ => ?_
  have hk := contrEquiv1_symm_val dot_S5000x64_S64x512_S5000x512_1_0_0_1_n_n 64 rfl rfl k
  have el : dot_S5000x64_S64x512_S5000x512_1_0_0_1_n_n.lhsIdx (ix2 p q) ((contrEquiv1 dot_S5000x64_S64x512_S5000x512_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x512_S5000x512_1_0_0_1_n_n.rhsIdx (ix2 p q) ((contrEquiv1 dot_S5000x64_S64x512_S5000x512_1_0_0_1_n_n 64 rfl rfl).symm k) = ix2 k q := funext fun a => Fin.ext (by
    match a with
    | ⟨0, _⟩ => exact (rhs_ax0 _ _).trans hk
    | ⟨1, _⟩ => exact rhs_ax1 _ _)
  rw [el, er, shapeCast_self]
  rfl

/-! ## The array the region leaves -/

variable (V : (c : Dev nD) → (b : Ref sig .tc) → Buf (Elt Ideal) ((c : Thread nD τ).loc b))

/-- The node states and the lane-folded matrix as the region finds them. -/
abbrev hArr (c : Dev nD) : S100000x64.Idx → EReal := V c main_arg0
abbrev wArr (c : Dev nD) : S64x512.Idx → EReal := V c main_v2

/-- Entry (r, c) of the output array: row r of the node states against column c of the matrix. -/
def htArr (c : Dev nD) : S100000x512.Idx → EReal :=
  fun i => ∑ k : Fin 64, hArr V c (ix2 ⟨(i 0).val, idx2_lt0 i⟩ k) * wArr V c (ix2 k ⟨(i 1).val, idx2_lt1 i⟩)

theorem hz : (![0, 0] : Fin 2 → Nat) = fun _ => 0 := funext fun a => by fin_cases a <;> rfl

/-- The printed index maps over the grid: the state block and the output block of point t sit at block row t, the matrix
    at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product array. -/
theorem flushed_eq (c : Dev nD) (t : Fin cfg0.N) :
    (dat0 (F := Ideal) V c).flushed 2 t = ((cfg0.win 2).blk t).view.read (Elt Ideal) (htArr V c) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x512) hz]
  obtain ⟨e0, e1, e2, e3, e4, e5⟩ := idx_facts t
  funext j
  obtain ⟨p, q, rfl⟩ : ∃ (p : Fin 5000) (q : Fin 512), j = ix2 p q := ⟨j 0, j 1, eq_ix2 j⟩
  refine (prod_apply (iblk0 V c 0 t) (iblk0 V c 1 t) p q).trans ?_
  show _ = htArr V c (((cfg0.win 2).blk t).view.emb (ix2 p q))
  unfold htArr
  refine Finset.sum_congr rfl fun k _ => ?_
  have h0 : (iblk0 V c 0 t : S5000x64.Idx → EReal) (ix2 p k)
      = hArr V c (ix2 ⟨((((cfg0.win 2).blk t).view.emb (ix2 p q)) 0).val, idx2_lt0 _⟩ k) := by
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : (iblk0 V c 1 t : S64x512.Idx → EReal) (ix2 k q)
      = wArr V c (ix2 k ⟨((((cfg0.win 2).blk t).view.emb (ix2 p q)) 1).val, idx2_lt1 _⟩) := by
    show V c main_v2 (((cfg0.win 1).blk t).view.emb (ix2 k q)) = V c main_v2 _
    refine congrArg (V c main_v2) (funext fun a => Fin.ext ?_)
    match a with
    | ⟨0, _⟩ => show win0_1.index t (0 : Fin 2) * 64 + 1 * k.val = k.val; omega
    | ⟨1, _⟩ => show win0_1.index t (1 : Fin 2) * 512 + 1 * q.val = win0_2.index t (1 : Fin 2) * 512 + 1 * q.val; omega
  rw [h0, h1]

/-- An index of the array is in point t's block iff each coordinate is in the block's range on its axis. -/
theorem mem_blk (t : Fin cfg0.N) (i : S100000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v3).slice (win0_2.rect t)).set ↔ _
  rw [View.set_slice_whole, Rect.mem_set_unit]
  exact Iff.rfl

/-- The blocks tile the array: row r lies in block r / 5000. -/
theorem cover (i : S100000x512.Idx) : ∃ t : Fin cfg0.N, (cfg0.win 2).flush t = true ∧ i ∈ ((cfg0.win 2).blk t).view.set := by
  have hi0 : (i 0).val < 100000 := idx2_lt0 i
  have hi1 : (i 1).val < 512 := idx2_lt1 i
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 512 ≤ (i 1).val ∧ (i 1).val < win0_2.index _ (1 : Fin 2) * 512 + 512
    rw [e5]; omega

/-- THE ARRAY after the region: the product of the node states with the lane-folded matrix, entry by entry. -/
theorem ht_final (c : Dev nD) : (dat0 (F := Ideal) V c).arrAt 2 cfg0.N = htArr V c :=
  (dat0 (F := Ideal) V c).arrAt_eq_of_cover 2 (htArr V c) (fun t _ => flushed_eq V c t) (cover)

end Cert.KernelIdeal.HtValue

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.Spec.lean ====
/-
  The arithmetic of one gated graph step, as functions of the argument arrays over the extended reals.

  A node n of type-t message lane q carries  ∑ₖ h[n,k] · A[t][q,k]  with  A[t][q,k] = edge_matrix[t, 64·q + k];
  an edge e carries the message of its source node and type; messages are summed per destination node (kept as the
  host's scatter-add, the same function in both programs); and the gated update of node n, lane j is
      r = σ(gi[j] + gh[j]),  z = σ(gi[64+j] + gh[64+j]),  c = tanh(gi[128+j] + r · gh[128+j]),
      h'[n,j] = (1 − z) · c + z · h[n,j],
  where gi[c] = ∑ₖ agg[n,k] · w_ih[c,k] + b_ih[c] and gh[c] = ∑ₖ h[n,k] · w_hh[c,k] + b_hh[c], σ the logistic function.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes of the arrays: node states [100000, 64], edge matrices [8, 4096], gate weights [192, 64], gate biases
    [192] and as a row [1, 192], edge lists [1280000], messages [1280000, 64]. -/
abbrev ShNode : Shape := ⟨2, ![100000, 64]⟩
abbrev ShEdgeMat : Shape := ⟨2, ![8, 4096]⟩
abbrev ShGate : Shape := ⟨2, ![192, 64]⟩
abbrev ShBias : Shape := ⟨1, ![192]⟩
abbrev ShBiasRow : Shape := ⟨2, ![1, 192]⟩
abbrev ShEdge : Shape := ⟨1, ![1280000]⟩
abbrev ShMsg : Shape := ⟨2, ![1280000, 64]⟩

/-- The float word of 1. -/
abbrev one : EReal := Ideal.ofBits .f32 0x3F800000#32

/-- Node n's message of type t, lane q: row n of h against row q of the type's 64 × 64 matrix. -/
def nodeMsg (h : FVec Ideal ShNode .f32) (em : FVec Ideal ShEdgeMat .f32) (n : Fin 100000) (t : Fin 8) (q : Fin 64) : EReal :=
  ∑ k : Fin 64, h (ix2 n k) * em (ix2 t (⟨q.val * 64 + k.val, by have := q.isLt; have := k.isLt; omega⟩ : Fin 4096))

/-- The source node and the type of edge e, each clamped into its range (the identity on indices in range). -/
def srcOf (src : IVec ShEdge 32) (e : Fin 1280000) : Fin 100000 := ⟨min (src (ix1 e)).toNat 99999, by omega⟩
def typOf (typ : IVec ShEdge 32) (e : Fin 1280000) : Fin 8 := ⟨min (typ (ix1 e)).toNat 7, by omega⟩

/-- The per-edge messages [1280000, 64]. -/
def edgeMsg (h : FVec Ideal ShNode .f32) (em : FVec Ideal ShEdgeMat .f32) (src typ : IVec ShEdge 32) : FVec Ideal ShMsg .f32 :=
  fun j => nodeMsg h em (srcOf src ⟨(j 0).val, idx2_lt0 j⟩) (typOf typ ⟨(j 0).val, idx2_lt0 j⟩) ⟨(j 1).val, idx2_lt1 j⟩

/-- A gate pre-activation: row n of x against row c of the gate weights, plus the bias. -/
def gate (x : FVec Ideal ShNode .f32) (w : FVec Ideal ShGate .f32) (b : Fin 192 → EReal) (n : Fin 100000) (c : Fin 192) : EReal :=
  (∑ k : Fin 64, x (ix2 n k) * w (ix2 c k)) + b c

/-- The gated update of node n, lane j, from the aggregated messages agg and the state h. -/
def gruAt (agg h : FVec Ideal ShNode .f32) (wih whh : FVec Ideal ShGate .f32) (bih bhh : Fin 192 → EReal)
    (n : Fin 100000) (j : Fin 64) : EReal :=
  let jr : Fin 192 := ⟨j.val, by have := j.isLt; omega⟩
  let jz : Fin 192 := ⟨64 + j.val, by have := j.isLt; omega⟩
  let jn : Fin 192 := ⟨128 + j.val, by have := j.isLt; omega⟩
  let r := Ideal.logistic (gate agg wih bih n jr + gate h whh bhh n jr)
  let z := Ideal.logistic (gate agg wih bih n jz + gate h whh bhh n jz)
  let c := Ideal.tanh (gate agg wih bih n jn + r * gate h whh bhh n jn)
  (one - z) * c + z * h (ix2 n j)

/-- The whole updated state [100000, 64]. -/
def gru (agg h : FVec Ideal ShNode .f32) (wih whh : FVec Ideal ShGate .f32) (bih bhh : Fin 192 → EReal) : FVec Ideal ShNode .f32 :=
  fun i => gruAt agg h wih whh bih bhh ⟨(i 0).val, idx2_lt0 i⟩ ⟨(i 1).val, idx2_lt1 i⟩

theorem gru_apply (agg h : FVec Ideal ShNode .f32) (wih whh : FVec Ideal ShGate .f32) (bih bhh : Fin 192 → EReal)
    (n : Fin 100000) (j : Fin 64) : gru agg h wih whh bih bhh (ix2 n j) = gruAt agg h wih whh bih bhh n j := rfl

theorem edgeMsg_apply (h : FVec Ideal ShNode .f32) (em : FVec Ideal ShEdgeMat .f32) (src typ : IVec ShEdge 32)
    (e : Fin 1280000) (q : Fin 64) : edgeMsg h em src typ (ix2 e q) = nodeMsg h em (srcOf src e) (typOf typ e) q := rfl

/-- The float word 0x3F800000 is the number 1. -/
theorem one_eq : one = 1 := by
  simp [one, Ideal.ofBits, Ideal.ieee]
  rw [← EReal.coe_mul]
  norm_num

end Cert.Spec

end
-- ==== Proof.KernelMsg.lean ====
/-
  The kernel program's per-edge messages are the specification's.

  The first region leaves, at (n, 64·t + q), node n's message of type t, lane q:  ∑ₖ h[n,k] · W[k, 64·t + q]  with
  W[k, 64·t + q] = A[t][q,k] = edge_matrix[t, 64·q + k].  Reshaped to one row per (node, type) pair, row 8·n + t holds
  that message's 64 lanes.  An edge reads row 8·src + type.  With src in [0, 100000) and type in [0, 8) the flat index is
  the number 8·src + type < 800000: the 32-bit product and sum do not wrap, the word is not negative read signed (so the
  wrap of negative indices leaves it), it lies in [0, 799999] (so the row is kept, not filled), and the gather's clamp
  is the identity on it.  Row 8·n + t splits back as n = (8·n + t) / 8 and t = (8·n + t) % 8.
-/
import proofs.«401008_j38878043963480_3_alg».proof.Proof.KernelHost
import proofs.«401008_j38878043963480_3_alg».proof.Proof.KernelHt
import proofs.«401008_j38878043963480_3_alg».proof.Proof.LibRowGather
import proofs.«401008_j38878043963480_3_alg».proof.Proof.Spec
import Idealize.ShloMosaic.Lib.StableHlo.Predicate
import Idealize.ShloMosaic.Lib.Pipeline.Value
import Idealize.ShloMosaic.PureOps.Reduce

set_option maxRecDepth 16384

noncomputable section

open scoped BigOperators

namespace Cert.KernelIdeal.MsgValue

open Cert.KernelIdeal Cert.KernelIdeal.Gen Cert.KernelIdeal.HostValue Cert.KernelIdeal.HtValue
open Idealize.ShloMosaic Idealize.ShloMosaic.TcCoe Idealize.ShloMosaic.ValueIdx Idealize.SL.Sem

/-! ## Words -/

/-- The flat row index of an edge: 8·src + type, as a number, when src < 100000 and type < 8. -/
theorem flat_toNat (s t : BitVec 32) (hs : s.toNat < 100000) (ht : t.toNat < 8) :
    (IntOp.addi (IntOp.muli s 8#32) t).toNat = 8 * s.toNat + t.toNat := by
  show (s * 8#32 + t).toNat = _
  rw [BitVec.toNat_add, BitVec.toNat_mul, show (8#32 : BitVec 32).toNat = 8 from rfl]
  omega

/-- A word below 2³¹ is not negative read signed: the comparison "below zero" is the bit 0 … -/
theorem slt_zero_of_lt {w : BitVec 32} (h : w.toNat < 2 ^ 31) : IntOp.cmpi .slt w 0#32 = 0#1 := by
  have hw : w.toInt = (w.toNat : Int) := StableHlo.Predicate.toInt_eq_toNat_of_lt h
  have hs : w.slt 0#32 = false := by
    rw [Bool.eq_false_iff]
    intro hlt
    rw [BitVec.slt_iff_toInt_lt, hw, show (0#32 : BitVec 32).toInt = 0 from by decide] at hlt
    omega
  show BitVec.ofBool (w.slt 0#32) = 0#1
  rw [hs]
  rfl
/-- … "at least zero" is the bit 1 … -/
theorem sge_zero_of_lt {w : BitVec 32} (h : w.toNat < 2 ^ 31) : IntOp.cmpi .sge w 0#32 = 1#1 := by
  rw [IntOp.cmpi_sge, StableHlo.Predicate.toInt_eq_toNat_of_lt h, show (0#32 : BitVec 32).toInt = 0 from by decide]
  omega
/-- … and "at most n" is the bit 1 when the word's value is at most the small literal n. -/
theorem sle_of_le {w : BitVec 32} (n : Nat) (hn : n < 2 ^ 31) (h : w.toNat ≤ n) : IntOp.cmpi .sle w (BitVec.ofNat 32 n) = 1#1 := by
  rw [IntOp.cmpi_sle, StableHlo.Predicate.toInt_eq_toNat_of_lt (by omega), StableHlo.Predicate.toInt_ofNat_small n hn]
  exact_mod_cast h

/-- A conjunction of one-bit words, all 1, from 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_ones f l fun n hn => h n (List.mem_cons_of_mem _ hn)

/-! ## The rows an edge list reads -/

section Rows
variable (x : FVec Ideal S800000x64 .f32) (src typ : IVec S1280000 32)
variable (hsrc : ∀ e : Fin 1280000, (src (ix1 e)).toNat < 100000) (htyp : ∀ e : Fin 1280000, (typ (ix1 e)).toNat < 8)

/-- The flat indices 8·src + type of the edges. -/
abbrev flatIdx : IVec S1280000 32 := addi (muli src (broadcastInDim S1280000 ![] bcast_S_S1280000 (constantI S_ 32 8#32))) typ

include hsrc htyp in
theorem flatIdx_toNat (e : Fin 1280000) : (flatIdx src typ (ix1 e)).toNat = 8 * (src (ix1 e)).toNat + (typ (ix1 e)).toNat :=
  flat_toNat _ _ (hsrc e) (htyp e)

include hsrc htyp in
theorem flatIdx_lt (e : Fin 1280000) : (flatIdx src typ (ix1 e)).toNat < 800000 := by
  rw [flatIdx_toNat src typ hsrc htyp e]; have := hsrc e; have := htyp e; omega

include hsrc htyp in
/-- The wrap of negative indices leaves every flat index as it is: the index column at (k, 0) is the flat index of k. -/
theorem wrapCol_apply (k : Fin 1280000) : wrapCol (flatIdx src typ) (ix2 k (0 : Fin 1)) = flatIdx src typ (ix1 k) := by
  unfold wrapCol
  refine (broadcastInDim_apply _ bcast_S1280000_S1280000x1_0 _ (ix2 k (0 : Fin 1)) (ix1 k) (fun a => ?_)).trans ?_
  · match a with
    | ⟨0, _⟩ => show k.val = if (1280000 : Nat) = 1 then 0 else k.val; rw [if_neg (by decide)]
  show Scalar.select (IntOp.cmpi .slt (flatIdx src typ (ix1 k)) 0#32) _ _ = _
  rw [slt_zero_of_lt (lt_trans (flatIdx_lt src typ hsrc htyp k) (by norm_num)), select_zero]

include hsrc htyp in
/-- Every flat index lies inside the table. -/
theorem inside_apply (e : Fin 1280000) : insideOf (wrapCol (flatIdx src typ)) (ix1 e) = 1#1 := by
  unfold insideOf
  rw [Host.reduce_eq_foldl]
  refine foldl_andi_ones _ _ fun i _ => ?_
  obtain ⟨k, z, rfl⟩ : ∃ (k : Fin 1280000) (z : Fin 1), i = ix2 k z := ⟨i 0, i 1, eq_ix2 i⟩
  obtain rfl : z = 0 := Subsingleton.elim _ _
  show IntOp.andi (IntOp.cmpi .sge (wrapCol (flatIdx src typ) (ix2 k (0 : Fin 1))) 0#32)
    (IntOp.cmpi .sle (wrapCol (flatIdx src typ) (ix2 k (0 : Fin 1))) 799999#32) = 1#1
  have hlt := flatIdx_lt src typ hsrc htyp k
  rw [wrapCol_apply src typ hsrc htyp k, sge_zero_of_lt (lt_trans hlt (by norm_num)),
    sle_of_le 799999 (by norm_num) (by omega)]
  decide

include hsrc htyp in
/-- Edge e's gathered row, lane q, is the table's row 8·src + type, lane q. -/
theorem takeRows_apply (e : Fin 1280000) (q : Fin 64) :
    takeRows x (flatIdx src typ) (ix2 e q)
      = x (ix2 (⟨8 * (src (ix1 e)).toNat + (typ (ix1 e)).toNat, by have := hsrc e; have := htyp e; omega⟩ : Fin 800000) q) := by
  have hlt := flatIdx_lt src typ hsrc htyp e
  unfold takeRows
  rw [select_apply]
  have hb : (broadcastInDim S1280000x64 ![0] bcast_S1280000_S1280000x64_0 (insideOf (wrapCol (flatIdx src typ))) : IVec S1280000x64 1) (ix2 e q) = 1#1 := by
    refine (broadcastInDim_apply _ bcast_S1280000_S1280000x64_0 _ (ix2 e q) (ix1 e) (fun a => ?_)).trans (inside_apply src typ hsrc htyp e)
    match a with
    | ⟨0, _⟩ => show e.val = if (1280000 : Nat) = 1 then 0 else e.val; rw [if_neg (by decide)]
  rw [hb, select_one]
  show Host.gather (Cert.LibRowGather.rowGatherDims 800000 64 1280000 gather_S800000x64_S1280000x1_S1280000x64_1_0_n_n_0_1_164_wf) x _ (ix2 e q) = _
  rw [Cert.LibRowGather.gather_rows_apply (by decide)]
  refine congrArg x (funext fun a => Fin.ext ?_)
  match a with
  | ⟨0, _⟩ =>
    show min (wrapCol (flatIdx src typ) (ix2 e (0 : Fin 1))).toInt.toNat (800000 - 1) = 8 * (src (ix1 e)).toNat + (typ (ix1 e)).toNat
    rw [wrapCol_apply src typ hsrc htyp e, StableHlo.Predicate.toInt_eq_toNat_of_lt (lt_trans hlt (by norm_num)), Int.toNat_natCast,
      flatIdx_toNat src typ hsrc htyp e]
    have := hsrc e; have := htyp e; omega
  | ⟨1, _⟩ => rfl

end Rows

end Cert.KernelIdeal.MsgValue

end
-- ==== Proof.KernelGru.lean ====
/-
  What the second region of the kernel program, the gated update, leaves in its output array.

  The region walks the 100000 node rows in 25 blocks of 4000. At block t it reads rows 4000·t … 4000·t + 3999 of the
  aggregated messages and of the node states, the whole gate weights [192, 64] (input side and state side) and the two
  bias rows [1, 192], and writes rows 4000·t … 4000·t + 3999 of the new states. For row p of the block and lane j,

      gi[g] = ∑ₖ agg[p,k] · w_ih[g,k] + b_ih[g],      gh[g] = ∑ₖ h[p,k] · w_hh[g,k] + b_hh[g]        (g < 192),
      r = σ(gi[j] + gh[j]),   z = σ(gi[64+j] + gh[64+j]),   c = tanh(gi[128+j] + r · gh[128+j]),
      h'[p,j] = (1 − z) · c + z · h[p,j],

  over the extended reals: the two products are sums over the 64 lanes (each contracts the lane axis of the row block with
  the lane axis of the weights, into a zero accumulator), the change of float format before them is the identity, the bias
  rows are broadcast down the rows, and the three gates are the three 64-column groups of the 192 columns.

  Steps: a product read at (p, g) (gateProduct_apply); the pre-activations at (p, g) (gateVec_apply); a 64-column group at
  (p, j) (laneGroup_apply); the gated combination at (p, j) (gated_apply); the body's whole value at (p, j)
  (payload_apply); a block row against the array row it holds (blockGru_eq_gruAt); each window's block as rows of its
  array (aggBlk_apply … bhhBlk_apply); the block a grid point writes back (flushed_eq); the 25 blocks tile the array
  (mem_blk, covered); the array after the region (gru_final).
-/
import proofs.«401008_j38878043963480_3_alg».proof.Proof.Gen.KernelIdeal.Frame
import proofs.«401008_j38878043963480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GruValue

open Cert.KernelIdeal Cert.KernelIdeal.Gen Idealize.ShloMosaic Idealize.ShloMosaic.TcCoe Idealize.ShloMosaic.ValueIdx Idealize.SL.Sem
open Idealize.ShloMosaic.Pipeline (Dat)

/-! ## The gate products: a block of rows against the rows of the gate weights -/

/-- The contraction of the kernel's two products: axis 1 of the row block against axis 1 of the weights. -/
abbrev gateDot : DotDims S4000x64 S192x64 S4000x192 := dot_S4000x64_S192x64_S4000x192_1_1_0_0_n_n

theorem gateDot_lhs_0 (i : S4000x192.Idx) (q : dot_S4000x64_S192x64_S4000x192_1_1_0_0_n_n.contr.Idx) :
    (dot_S4000x64_S192x64_S4000x192_1_1_0_0_n_n.lhsIdx i q 0).val = (i 0).val := by
  unfold DotDims.lhsIdx
  rw [dif_neg (show ¬(0 : Fin S4000x64.rank) ∈ dot_S4000x64_S192x64_S4000x192_1_1_0_0_n_n.lhsBatch by decide), dif_pos (show (0 : Fin S4000x64.rank) ∈ dot_S4000x64_S192x64_S4000x192_1_1_0_0_n_n.lhsNonContracting by decide)]
  rfl
theorem gateDot_lhs_1 (i : S4000x192.Idx) (q : dot_S4000x64_S192x64_S4000x192_1_1_0_0_n_n.contr.Idx) :
    (dot_S4000x64_S192x64_S4000x192_1_1_0_0_n_n.lhsIdx i q 1).val = (q ⟨0, by decide⟩).val :=
  dot_S4000x64_S192x64_S4000x192_1_1_0_0_n_n.lhsIdx_val_of_single rfl i q
theorem gateDot_rhs_0 (i : S4000x192.Idx) (q : dot_S4000x64_S192x64_S4000x192_1_1_0_0_n_n.contr.Idx) :
    (dot_S4000x64_S192x64_S4000x192_1_1_0_0_n_n.rhsIdx i q 0).val = (i 1).val := by
  unfold DotDims.rhsIdx
  rw [dif_neg (show ¬(0 : Fin S192x64.rank) ∈ dot_S4000x64_S192x64_S4000x192_1_1_0_0_n_n.rhsBatch by decide), dif_pos (show (0 : Fin S192x64.rank) ∈ dot_S4000x64_S192x64_S4000x192_1_1_0_0_n_n.rhsNonContracting by decide)]
  rfl
theorem gateDot_rhs_1 (i : S4000x192.Idx) (q : dot_S4000x64_S192x64_S4000x192_1_1_0_0_n_n.contr.Idx) :
    (dot_S4000x64_S192x64_S4000x192_1_1_0_0_n_n.rhsIdx i q 1).val = (q ⟨0, by decide⟩).val :=
  dot_S4000x64_S192x64_S4000x192_1_1_0_0_n_n.rhsIdx_val_of_single rfl i q

/-- A product into the zero accumulator, read at row p and gate column g: row p of the block against row g of the weights. -/
theorem gateProduct_apply {φ₁ φ₂ : FTy} (x : FVec Ideal S4000x64 φ₁) (w : FVec Ideal S192x64 φ₂) (p : Fin 4000) (g : Fin 192) :
    matmul dot_S4000x64_S192x64_S4000x192_1_1_0_0_n_n none x w (constant S4000x192 .f32 0x00000000#32) (ix2 p g)
      = ∑ k : Fin 64, x (ix2 p k) * w (ix2 g k) := by
  refine (Ideal.matmul_constant_zero_apply dot_S4000x64_S192x64_S4000x192_1_1_0_0_n_n none x w (ix2 p g)).trans ?_
  rw [← Equiv.sum_comp (ValueIdx.contrEquiv1 dot_S4000x64_S192x64_S4000x192_1_1_0_0_n_n 64 rfl rfl).symm]
  refine Finset.sum_congr rfl fun k _ => ?_
  have hk := ValueIdx.contrEquiv1_symm_val dot_S4000x64_S192x64_S4000x192_1_1_0_0_n_n 64 rfl rfl k
  have el : dot_S4000x64_S192x64_S4000x192_1_1_0_0_n_n.lhsIdx (ix2 p g) ((ValueIdx.contrEquiv1 dot_S4000x64_S192x64_S4000x192_1_1_0_0_n_n 64 rfl rfl).symm k) = ix2 p k := funext fun a => Fin.ext (by
    match a with
    | ⟨0, _⟩ => exact gateDot_lhs_0 _ _
    | ⟨1, _⟩ => exact (gateDot_lhs_1 _ _).trans hk)
  have er : dot_S4000x64_S192x64_S4000x192_1_1_0_0_n_n.rhsIdx (ix2 p g) ((ValueIdx.contrEquiv1 dot_S4000x64_S192x64_S4000x192_1_1_0_0_n_n 64 rfl rfl).symm k) = ix2 g k := funext fun a => Fin.ext (by
    match a with
    | ⟨0, _⟩ => exact gateDot_rhs_0 _ _
    | ⟨1, _⟩ => exact (gateDot_rhs_1 _ _).trans hk)
  rw [el, er]

/-! ## The gated update of one block of rows -/

/-- The vector logistic and hyperbolic tangent read at an index are the extended reals' functions of the element. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- Gate column g, as a column of the three 64-lane groups: lane j of the group that starts at column off. -/
abbrev gateCol (off : Nat) (hoff : off + 64 ≤ 192) (j : Fin 64) : Fin 192 := ⟨off + j.val, by have := j.isLt; omega⟩

/-- A gate pre-activation of a block: row p of the block against row g of the gate weights, plus entry g of the bias row. -/
def rowGate (x : Vec Ideal S4000x64 .f32) (w : Vec Ideal S192x64 .f32) (b : Vec Ideal S1x192 .f32) (p : Fin 4000) (g : Fin 192) : EReal :=
  (∑ k : Fin 64, x (ix2 p k) * w (ix2 g k)) + b (ix2 (0 : Fin 1) g)

/-- The gated update of row p, lane j of a block, from the aggregate block and the state block. -/
def blockGru (agg h : Vec Ideal S4000x64 .f32) (wih whh : Vec Ideal S192x64 .f32) (bih bhh : Vec Ideal S1x192 .f32)
    (p : Fin 4000) (j : Fin 64) : EReal :=
  (Cert.Spec.one - Ideal.logistic (rowGate agg wih bih p (gateCol 64 (by omega) j) + rowGate h whh bhh p (gateCol 64 (by omega) j)))
      * Ideal.tanh (rowGate agg wih bih p (gateCol 128 (by omega) j)
          + Ideal.logistic (rowGate agg wih bih p (gateCol 0 (by omega) j) + rowGate h whh bhh p (gateCol 0 (by omega) j))
            * rowGate h whh bhh p (gateCol 128 (by omega) j))
    + Ideal.logistic (rowGate agg wih bih p (gateCol 64 (by omega) j) + rowGate h whh bhh p (gateCol 64 (by omega) j)) * h (ix2 p j)

/-- The pre-activations [4000, 192] as the body builds them, the product into a zero accumulator plus the bias row
    broadcast down the rows, read at row p and column g. -/
theorem gateVec_apply (x : Vec Ideal S4000x64 .f32) (w : Vec Ideal S192x64 .f32) (b : Vec Ideal S1x192 .f32)
    (hbr : S1x192.Broadcasts S4000x192) (hlt : FTy.bits .bf16 < FTy.bits .f32) (p : Fin 4000) (g : Fin 192) :
    addf (F := Ideal) (φ := .f32) (matmul (F := Ideal) dot_S4000x64_S192x64_S4000x192_1_1_0_0_n_n none (truncf (F := Ideal) (φ := .f32) .bf16 x hlt)
          (truncf (F := Ideal) (φ := .f32) .bf16 w hlt) (constant (F := Ideal) S4000x192 .f32 0x00000000#32))
        (broadcastTo S4000x192 b hbr) (ix2 p g) = rowGate x w b p g := by
  refine (addf_apply _ _ _).trans ?_
  unfold rowGate
  congr 1
  · exact gateProduct_apply _ _ p g
  · refine broadcastTo_apply b hbr (ix2 p g) (ix2 (0 : Fin 1) g) fun a => ?_
    match a with
    | ⟨0, _⟩ => rfl
    | ⟨1, _⟩ => rfl

/-- A 64-lane group of the pre-activations: the slice at column offset off, read at row p and lane j, is column off + j. -/
theorem laneGroup_apply (off : Nat) (hoff : off + 64 ≤ 192) (x : FVec Ideal S4000x192 .f32) (s : S4000x192.Slices ![0, off] S4000x64)
    (p : Fin 4000) (j : Fin 64) :
    extractStridedSlice S4000x64 ![0, off] x s (ix2 p j) = x (ix2 p (gateCol off hoff j)) :=
  extractStridedSlice_apply _ x s (ix2 p j) _ fun a => by
    match a with
    | ⟨0, _⟩ => exact (Nat.zero_add _).symm
    | ⟨1, _⟩ => rfl

/-- The gated combination of the two pre-activation arrays and the state block, at row p and lane j. -/
theorem gated_apply (gi gh : FVec Ideal S4000x192 .f32) (h : Vec Ideal S4000x64 .f32)
    (s0 : S4000x192.Slices ![0, 0] S4000x64) (s1 : S4000x192.Slices ![0, 64] S4000x64) (s2 : S4000x192.Slices ![0, 128] S4000x64)
    (p : Fin 4000) (j : Fin 64) :
    addf (mulf (subf (broadcast S4000x64 (Scalar.ofBits .f32 0x3F800000#32 : Ideal .f32))
                  (logistic (addf (extractStridedSlice S4000x64 ![0, 64] gi s1) (extractStridedSlice S4000x64 ![0, 64] gh s1))))
              (tanh (addf (extractStridedSlice S4000x64 ![0, 128] gi s2)
                 (mulf (logistic (addf (extractStridedSlice S4000x64 ![0, 0] gi s0) (extractStridedSlice S4000x64 ![0, 0] gh s0)))
                       (extractStridedSlice S4000x64 ![0, 128] gh s2)))))
         (mulf (logistic (addf (extractStridedSlice S4000x64 ![0, 64] gi s1) (extractStridedSlice S4000x64 ![0, 64] gh s1))) h) (ix2 p j)
      = (Cert.Spec.one - Ideal.logistic (gi (ix2 p (gateCol 64 (by omega) j)) + gh (ix2 p (gateCol 64 (by omega) j))))
          * Ideal.tanh (gi (ix2 p (gateCol 128 (by omega) j))
              + Ideal.logistic (gi (ix2 p (gateCol 0 (by omega) j)) + gh (ix2 p (gateCol 0 (by omega) j))) * gh (ix2 p (gateCol 128 (by omega) j)))
        + Ideal.logistic (gi (ix2 p (gateCol 64 (by omega) j)) + gh (ix2 p (gateCol 64 (by omega) j))) * h (ix2 p j) := by
  simp only [addf_apply, mulf_apply, subf_apply, broadcast_apply, logistic_apply, tanh_apply]
  rw [laneGroup_apply 0 (by omega) gi s0 p j, laneGroup_apply 0 (by omega) gh s0 p j,
    laneGroup_apply 64 (by omega) gi s1 p j, laneGroup_apply 64 (by omega) gh s1 p j,
    laneGroup_apply 128 (by omega) gi s2 p j, laneGroup_apply 128 (by omega) gh s2 p j]
  rfl

/-- THE BODY'S PAYLOAD at row p, lane j: the gated update of that row of the aggregate block and of the state block.
    (The body loads the state block first and the aggregate block second.) -/
theorem payload_apply (h agg : Vec Ideal S4000x64 .f32) (wih whh : Vec Ideal S192x64 .f32) (bih bhh : Vec Ideal S1x192 .f32)
    (p : Fin 4000) (j : Fin 64) :
    k1_pay1 h agg wih whh bih bhh (ix2 p j) = blockGru agg h wih whh bih bhh p j := by
  unfold k1_pay1
  simp only [shapeCast_self]
  refine (gated_apply _ _ h _ _ _ p j).trans ?_
  simp only [gateVec_apply]
  rfl

/-! ## From a block's rows to the arrays' rows -/

/-- The gated update of a block's row is the specification's update of the array row it holds: when row p of the two
    row blocks is row n of the two node arrays and the weight and bias blocks are the whole weight and bias arrays. -/
theorem blockGru_eq_gruAt (agg h : Vec Ideal S4000x64 .f32) (wih whh : Vec Ideal S192x64 .f32) (bih bhh : Vec Ideal S1x192 .f32)
    (AGG H : FVec Ideal Cert.Spec.ShNode .f32) (WIH WHH : FVec Ideal Cert.Spec.ShGate .f32) (BIH BHH : Fin 192 → EReal)
    (p : Fin 4000) (n : Fin 100000) (j : Fin 64)
    (hagg : ∀ k : Fin 64, agg (ix2 p k) = AGG (ix2 n k)) (hh : ∀ k : Fin 64, h (ix2 p k) = H (ix2 n k))
    (hwih : ∀ (g : Fin 192) (k : Fin 64), wih (ix2 g k) = WIH (ix2 g k))
    (hwhh : ∀ (g : Fin 192) (k : Fin 64), whh (ix2 g k) = WHH (ix2 g k))
    (hbih : ∀ g : Fin 192, bih (ix2 (0 : Fin 1) g) = BIH g) (hbhh : ∀ g : Fin 192, bhh (ix2 (0 : Fin 1) g) = BHH g) :
    blockGru agg h wih whh bih bhh p j = Cert.Spec.gruAt AGG H WIH WHH BIH BHH n j := by
  have gi : ∀ g : Fin 192, rowGate agg wih bih p g = Cert.Spec.gate AGG WIH BIH n g := fun g => by
    unfold rowGate Cert.Spec.gate
    rw [hbih g]
    congr 1
    exact Finset.sum_congr rfl fun k _ => by rw [hagg k, hwih g k]
  have gh : ∀ g : Fin 192, rowGate h whh bhh p g = Cert.Spec.gate H WHH BHH n g := fun g => by
    unfold rowGate Cert.Spec.gate
    rw [hbhh g]
    congr 1
    exact Finset.sum_congr rfl fun k _ => by rw [hh k, hwhh g k]
  have e0 : gateCol 0 (by omega) j = (⟨j.val, by have := j.isLt; omega⟩ : Fin 192) := Fin.ext (Nat.zero_add _)
  unfold blockGru Cert.Spec.gruAt
  simp only [gi, gh, hh j, e0]

/-! ## The blocks the region reads and the block it writes back -/

theorem hz : (![0, 0] : Fin 2 → Nat) = fun _ => 0 := funext fun a => by fin_cases a <;> rfl

/-- The printed index maps, decided over the grid: at point t the aggregate, state and output windows are at block (t, 0)
    of their arrays, the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The input windows' blocks at point t, at their literal types, -/
abbrev aggBlk (c : Dev nD) (t : Fin cfg1.N) : Vec Ideal S4000x64 .f32 := iblk1 V c 0 t
abbrev stateBlk (c : Dev nD) (t : Fin cfg1.N) : Vec Ideal S4000x64 .f32 := iblk1 V c 1 t
abbrev wihBlk (c : Dev nD) (t : Fin cfg1.N) : Vec Ideal S192x64 .f32 := iblk1 V c 2 t
abbrev whhBlk (c : Dev nD) (t : Fin cfg1.N) : Vec Ideal S192x64 .f32 := iblk1 V c 3 t
abbrev bihBlk (c : Dev nD) (t : Fin cfg1.N) : Vec Ideal S1x192 .f32 := iblk1 V c 4 t
abbrev bhhBlk (c : Dev nD) (t : Fin cfg1.N) : Vec Ideal S1x192 .f32 := iblk1 V c 5 t

/-- and the arrays they are cut from, as the region finds them: the aggregated messages, the node states, the two gate
    weight matrices and the two bias rows (as vectors of 192). -/
abbrev aggArr (c : Dev nD) : FVec Ideal Cert.Spec.ShNode .f32 := V c main_v11
abbrev stateArr (c : Dev nD) : FVec Ideal Cert.Spec.ShNode .f32 := V c main_arg0
abbrev wihArr (c : Dev nD) : FVec Ideal Cert.Spec.ShGate .f32 := V c main_arg2
abbrev whhArr (c : Dev nD) : FVec Ideal Cert.Spec.ShGate .f32 := V c main_arg3
abbrev bihArr (c : Dev nD) : Fin 192 → EReal := fun k => (V c main_v12 : S1x192.Idx → EReal) (ix2 (0 : Fin 1) k)
abbrev bhhArr (c : Dev nD) : Fin 192 → EReal := fun k => (V c main_v13 : S1x192.Idx → EReal) (ix2 (0 : Fin 1) k)

/-- Row p of point t's row blocks is row 4000·t + p of the node arrays. -/
abbrev rowOf (t : Fin cfg1.N) (p : Fin 4000) : Fin 100000 :=
  ⟨4000 * t.val + p.val, by have := t.isLt; have hN : cfg1.N = 25 := N_1; have := p.isLt; omega⟩

theorem aggBlk_apply (c : Dev nD) (t : Fin cfg1.N) (p : Fin 4000) (k : Fin 64) :
    aggBlk V c t (ix2 p k) = aggArr V c (ix2 (rowOf t p) k) := by
  obtain ⟨e0, e1, -⟩ := idx_facts t
  show V c main_v11 (((cfg1.win 0).blk t).view.emb (ix2 p k)) = V c main_v11 (ix2 (rowOf t p) k)
  refine congrArg _ (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 64 + 1 * k.val = k.val; rw [e1]; omega

theorem stateBlk_apply (c : Dev nD) (t : Fin cfg1.N) (p : Fin 4000) (k : Fin 64) :
    stateBlk V c t (ix2 p k) = stateArr V c (ix2 (rowOf t p) k) := by
  obtain ⟨-, -, e0, e1, -⟩ := idx_facts t
  show V c main_arg0 (((cfg1.win 1).blk t).view.emb (ix2 p k)) = V c main_arg0 (ix2 (rowOf t p) k)
  refine congrArg _ (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 64 + 1 * k.val = k.val; rw [e1]; omega

theorem wihBlk_apply (c : Dev nD) (t : Fin cfg1.N) (g : Fin 192) (k : Fin 64) :
    wihBlk V c t (ix2 g k) = wihArr V c (ix2 g k) := by
  obtain ⟨-, -, -, -, e0, e1, -⟩ := idx_facts t
  show V c main_arg2 (((cfg1.win 2).blk t).view.emb (ix2 g k)) = V c main_arg2 (ix2 g k)
  refine congrArg _ (funext fun a => Fin.ext ?_)
  match a with
  | ⟨0, _⟩ => show win1_2.index t (0 : Fin 2) * 192 + 1 * g.val = g.val; rw [e0]; omega
  | ⟨1, _⟩ => show win1_2.index t (1 : Fin 2) * 64 + 1 * k.val = k.val; rw [e1]; omega

theorem whhBlk_apply (c : Dev nD) (t : Fin cfg1.N) (g : Fin 192) (k : Fin 64) :
    whhBlk V c t (ix2 g k) = whhArr V c (ix2 g k) := by
  obtain ⟨-, -, -, -, -, -, e0, e1, -⟩ := idx_facts t
  show V c main_arg3 (((cfg1.win 3).blk t).view.emb (ix2 g k)) = V c main_arg3 (ix2 g k)
  refine congrArg _ (funext fun a => Fin.ext ?_)
  match a with
  | ⟨0, _⟩ => show win1_3.index t (0 : Fin 2) * 192 + 1 * g.val = g.val; rw [e0]; omega
  | ⟨1, _⟩ => show win1_3.index t (1 : Fin 2) * 64 + 1 * k.val = k.val; rw [e1]; omega

theorem bihBlk_apply (c : Dev nD) (t : Fin cfg1.N) (g : Fin 192) :
    bihBlk V c t (ix2 (0 : Fin 1) g) = bihArr V c g := by
  obtain ⟨-, -, -, -, -, -, -, -, e0, e1, -⟩ := idx_facts t
  show V c main_v12 (((cfg1.win 4).blk t).view.emb (ix2 (0 : Fin 1) g)) = V c main_v12 (ix2 (0 : Fin 1) g)
  refine congrArg _ (funext fun a => Fin.ext ?_)
  match a with
  | ⟨0, _⟩ => show win1_4.index t (0 : Fin 2) * 1 + 1 * 0 = 0; rw [e0]
  | ⟨1, _⟩ => show win1_4.index t (1 : Fin 2) * 192 + 1 * g.val = g.val; rw [e1]; omega

theorem bhhBlk_apply (c : Dev nD) (t : Fin cfg1.N) (g : Fin 192) :
    bhhBlk V c t (ix2 (0 : Fin 1) g) = bhhArr V c g := by
  obtain ⟨-, -, -, -, -, -, -, -, -, -, e0, e1, -⟩ := idx_facts t
  show V c main_v13 (((cfg1.win 5).blk t).view.emb (ix2 (0 : Fin 1) g)) = V c main_v13 (ix2 (0 : Fin 1) g)
  refine congrArg _ (funext fun a => Fin.ext ?_)
  match a with
  | ⟨0, _⟩ => show win1_5.index t (0 : Fin 2) * 1 + 1 * 0 = 0; rw [e0]
  | ⟨1, _⟩ => show win1_5.index t (1 : Fin 2) * 192 + 1 * g.val = g.val; rw [e1]; omega

/-- What the region leaves in its output array: the specification's gated update of the arrays as the region finds them. -/
abbrev updated (c : Dev nD) : FVec Ideal Cert.Spec.ShNode .f32 :=
  Cert.Spec.gru (aggArr V c) (stateArr V c) (wihArr V c) (whhArr V c) (bihArr V c) (bhhArr V c)

/-- WHAT POINT t WRITES BACK is block t of the updated states. -/
theorem flushed_eq (c : Dev nD) (t : Fin cfg1.N) :
    (dat1 V c).flushed 6 t = ((cfg1.win 6).blk t).view.read (Elt Ideal) (updated V c) := by
  show (cfg1.win 6).cut (grid1.coords t) ((dat1 V c).after 6 t) = _
  rw [after1_6]
  unfold out1_6
  rw [View.canon_unit_zero hz]
  simp only [View.ld_unit_zero (S := S4000x64) hz, View.ld_unit_zero (S := S192x64) hz, View.ld_unit_zero (S := S1x192) hz]
  funext y
  obtain ⟨p, j, rfl⟩ : ∃ (p : Fin 4000) (j : Fin 64), y = ix2 p j := ⟨y 0, y 1, eq_ix2 y⟩
  obtain ⟨-, -, -, -, -, -, -, -, -, -, -, -, e0, e1⟩ := idx_facts t
  show k1_pay1 (stateBlk V c t) (aggBlk V c t) (wihBlk V c t) (whhBlk V c t) (bihBlk V c t) (bhhBlk V c t) (ix2 p j)
      = updated V c (((cfg1.win 6).blk t).view.emb (ix2 p j))
  have hi : ((cfg1.win 6).blk t).view.emb (ix2 p j) = ix2 (rowOf t p) j := funext fun a => Fin.ext (by
    match a with
    | ⟨0, _⟩ => show win1_6.index t (0 : Fin 2) * 4000 + 1 * p.val = 4000 * t.val + p.val; rw [e0]; omega
    | ⟨1, _⟩ => show win1_6.index t (1 : Fin 2) * 64 + 1 * j.val = j.val; rw [e1]; omega)
  rw [hi]
  refine (payload_apply (stateBlk V c t) (aggBlk V c t) (wihBlk V c t) (whhBlk V c t) (bihBlk V c t) (bhhBlk V c t) p j).trans ?_
  exact blockGru_eq_gruAt (aggBlk V c t) (stateBlk V c t) (wihBlk V c t) (whhBlk V c t) (bihBlk V c t) (bhhBlk V c t)
    (aggArr V c) (stateArr V c) (wihArr V c) (whhArr V c) (bihArr V c) (bhhArr V c) p (rowOf t p) j
    (aggBlk_apply V c t p) (stateBlk_apply V c t p) (wihBlk_apply V c t) (whhBlk_apply V c t) (bihBlk_apply V c t) (bhhBlk_apply V c t)

/-! ## The blocks tile the output array -/

/-- An index of the array is in point t's block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v14).slice (win1_6.rect t)).set ↔ _
  rw [View.set_slice_whole, Rect.mem_set_unit]
  exact Iff.rfl

/-- Row r of the array is in the block of point r / 4000, which writes back. -/
theorem covered (i : S100000x64.Idx) : ∃ t : Fin cfg1.N, (cfg1.win 6).flush t = true ∧ i ∈ ((cfg1.win 6).blk t).view.set := by
  have hi0 : (i 0).val < 100000 := idx2_lt0 i
  have hi1 : (i 1).val < 64 := idx2_lt1 i
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; rw [e0]; omega
  | ⟨1, _⟩ => show win1_6.index t (1 : Fin 2) * 64 ≤ (i 1).val ∧ (i 1).val < win1_6.index t (1 : Fin 2) * 64 + 64; rw [e1]; omega

/-! ## The output array after the region -/

/-- THE OUTPUT ARRAY after the region, at any entry contents: the gated update of the node states from the aggregated
    messages, the gate weights and the bias rows as the region finds them. -/
theorem gru_final (c : Dev nD) :
    ((dat1 (F := Ideal) V c).arrAt 6 cfg1.N : S100000x64.Idx → EReal)
      = Cert.Spec.gru (V c main_v11) (V c main_arg0) (V c main_arg2) (V c main_arg3)
          (fun k => (V c main_v12 : S1x192.Idx → EReal) (ix2 (0 : Fin 1) k)) (fun k => (V c main_v13 : S1x192.Idx → EReal) (ix2 (0 : Fin 1) k)) :=
  (dat1 V c).arrAt_eq_of_cover 6 (updated V c) (fun t _ => flushed_eq V c t) covered

end Cert.KernelIdeal.GruValue

end
-- ==== Proof.KernelValue.lean ====
/-
  The kernel program's result, as the specification's gated update of the specification's messages.

  The lane-folded matrix the first region multiplies by holds, at (k, 64·t + q), the entry edge_matrix[t, 64·q + k], so the
  first region's output holds at (n, 64·t + q) node n's message of type t, lane q; row 8·n + t of its row-per-pair view
  holds that message's lanes, and an edge with source and type in range reads exactly that row.  The messages summed per
  destination node enter the second region with the node states, the gate weights and the bias rows, and the second region
  leaves the gated update.
-/
import proofs.«401008_j38878043963480_3_alg».proof.Proof.KernelMsg
import proofs.«401008_j38878043963480_3_alg».proof.Proof.KernelGru
import proofs.«401008_j38878043963480_3_alg».proof.Proof.KernelRun

set_option maxRecDepth 16384

noncomputable section

open scoped BigOperators

namespace Cert.KernelIdeal.Result

open Cert.KernelIdeal Cert.KernelIdeal.Gen Cert.KernelIdeal.HostValue Cert.KernelIdeal.HtValue Cert.KernelIdeal.MsgValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The arguments at their literal types. -/
abbrev hA (c : Dev nD) : S100000x64.Idx → EReal := m ((c : Thread nD τ).loc main_arg0)
abbrev emA (c : Dev nD) : S8x4096.Idx → EReal := m ((c : Thread nD τ).loc main_arg1)
abbrev wihA (c : Dev nD) : S192x64.Idx → EReal := m ((c : Thread nD τ).loc main_arg2)
abbrev whhA (c : Dev nD) : S192x64.Idx → EReal := m ((c : Thread nD τ).loc main_arg3)
abbrev bihA (c : Dev nD) : S192.Idx → EReal := m ((c : Thread nD τ).loc main_arg4)
abbrev bhhA (c : Dev nD) : S192.Idx → EReal := m ((c : Thread nD τ).loc main_arg5)
abbrev srcA (c : Dev nD) : IVec S1280000 32 := m ((c : Thread nD τ).loc main_arg6)
abbrev dstA (c : Dev nD) : IVec S1280000 32 := m ((c : Thread nD τ).loc main_arg7)
abbrev typA (c : Dev nD) : IVec S1280000 32 := m ((c : Thread nD τ).loc main_arg8)

/-- The lane-folded matrix at (k, 64·t + q) is the type-t edge matrix at (q, k). -/
theorem folded_apply (c : Dev nD) (k : Fin 64) (t : Fin 8) (q : Fin 64) :
    wArr (V1 m ρ) c (ix2 k (⟨t.val * 64 + q.val, by have := t.isLt; have := q.isLt; omega⟩ : Fin 512))
      = emA m c (ix2 t (⟨q.val * 64 + k.val, by have := q.isLt; have := k.isLt; omega⟩ : Fin 4096)) := by
  have ht := t.isLt; have hq := q.isLt; have hk := k.isLt
  show (W1 m ρ c (Proc.devRef .tc main_v2) : S64x512.Idx → EReal) _ = _
  rw [W1_v2]
  refine (shapeCast_apply _ shapeCasts_S64x8x64_S64x512 _ (ix3 k t q) ?_).trans ?_
  · rw [Shape.rowMajor_val_three, Shape.rowMajor_val_two]
    show (k.val * 8 + t.val) * 64 + q.val = k.val * 512 + (t.val * 64 + q.val)
    omega
  refine (transpose_apply [2, 0, 1] _ transposes_S8x64x64_S64x8x64_2_0_1 (ix3 k t q) (ix3 t q k) (fun b => ?_)).trans ?_
  · match b with
    | ⟨0, _⟩ => rfl
    | ⟨1, _⟩ => rfl
    | ⟨2, _⟩ => rfl
  refine shapeCast_apply _ shapeCasts_S8x4096_S8x64x64 (ix3 t q k) _ ?_
  rw [Shape.rowMajor_val_three, Shape.rowMajor_val_two]
  show t.val * 4096 + (q.val * 64 + k.val) = (t.val * 64 + q.val) * 64 + k.val
  omega

/-- The first region's output at (n, 64·t + q) is node n's message of type t, lane q. -/
theorem ht_entry (c : Dev nD) (n : Fin 100000) (t : Fin 8) (q : Fin 64) :
    htArr (V1 m ρ) c (ix2 n (⟨t.val * 64 + q.val, by have := t.isLt; have := q.isLt; omega⟩ : Fin 512))
      = Cert.Spec.nodeMsg (hA m c) (emA m c) n t q := by
  unfold htArr Cert.Spec.nodeMsg
  refine Finset.sum_congr rfl fun k _ => ?_
  show hArr (V1 m ρ) c (ix2 n k) * wArr (V1 m ρ) c (ix2 k (⟨t.val * 64 + q.val, _⟩ : Fin 512)) = _
  have e0 : hArr (V1 m ρ) c = hA m c := W1_arg0 m ρ c
  rw [folded_apply m ρ c k t q, e0]

/-- THE KERNEL PROGRAM'S PER-EDGE MESSAGES, with sources and types in range, are the specification's. -/
theorem kernel_msg (c : Dev nD)
    (hsrc : ∀ e : Fin 1280000, (srcA m c (ix1 e)).toNat < 100000) (htyp : ∀ e : Fin 1280000, (typA m c (ix1 e)).toNat < 8) :
    (W4 m ρ c (Proc.devRef .tc main_v8) : S1280000x64.Idx → EReal)
      = Cert.Spec.edgeMsg (hA m c) (emA m c) (srcA m c) (typA m c) := by
  rw [W4_v8, W3_v7]
  funext j
  obtain ⟨e, q, rfl⟩ : ∃ (e : Fin 1280000) (q : Fin 64), j = ix2 e q := ⟨j 0, j 1, eq_ix2 j⟩
  have hs := hsrc e; have ht := htyp e; have hq := q.isLt
  rw [Cert.Spec.edgeMsg_apply]
  refine (takeRows_apply _ (srcA m c) (typA m c) hsrc htyp e q).trans ?_
  rw [W3_v4]
  refine (shapeCast_apply _ shapeCasts_S100000x512_S800000x64 _
    (ix2 (Cert.Spec.srcOf (srcA m c) e) (⟨(Cert.Spec.typOf (typA m c) e).val * 64 + q.val, by
      have := (Cert.Spec.typOf (typA m c) e).isLt; omega⟩ : Fin 512)) ?_).trans ?_
  · rw [Shape.rowMajor_val_two, Shape.rowMajor_val_two]
    show min (srcA m c (ix1 e)).toNat 99999 * 512 + (min (typA m c (ix1 e)).toNat 7 * 64 + q.val)
      = (8 * (srcA m c (ix1 e)).toNat + (typA m c (ix1 e)).toNat) * 64 + q.val
    rw [Nat.min_eq_left (by omega), Nat.min_eq_left (by omega)]
    omega
  rw [show (W2 m ρ c (Proc.devRef .tc main_v3) : S100000x512.Idx → EReal) = htArr (V1 m ρ) c from
    (W2_arr m ρ c 2).trans (ht_final (V1 m ρ) c)]
  exact ht_entry m ρ c _ _ q

/-- The aggregated messages: the specification's per-edge messages summed per destination node into zeros. -/
abbrev aggOf (c : Dev nD) : S100000x64.Idx → EReal :=
  Host.scatterAdd scatter_S100000x64_S1280000x1_S1280000x64_1_0_0_1
    (broadcastInDim S100000x64 ![] bcast_S_S100000x64 (constant (F := Ideal) S_ .f32 0x00000000#32))
    (broadcastInDim S1280000x1 ![0] bcast_S1280000_S1280000x1_0 (dstA m c))
    (Cert.Spec.edgeMsg (hA m c) (emA m c) (srcA m c) (typA m c))

/-- A bias laid out as a row [1, 192] reads, at (0, k), the bias at k. -/
theorem biasRow_apply (b : S192.Idx → EReal) (k : Fin 192) :
    shapeCast S1x192 b shapeCasts_S192_S1x192 (ix2 (0 : Fin 1) k) = b (ix1 k) := by
  refine shapeCast_apply _ shapeCasts_S192_S1x192 _ (ix1 k) ?_
  rw [Shape.rowMajor_val_one, Shape.rowMajor_val_two]
  show k.val = 0 * 192 + k.val
  omega

/-- THE RESULT BUFFER after the run: the specification's gated update of the aggregated messages and the node states. -/
theorem result_eq (c : Dev nD)
    (hsrc : ∀ e : Fin 1280000, (srcA m c (ix1 e)).toNat < 100000) (htyp : ∀ e : Fin 1280000, (typA m c (ix1 e)).toNat < 8) :
    (W6 m ρ c (Proc.devRef .tc main_v14) : S100000x64.Idx → EReal)
      = Cert.Spec.gru (aggOf m c) (hA m c) (wihA m c) (whhA m c) (fun k => bihA m c (ix1 k)) (fun k => bhhA m c (ix1 k)) := by
  refine ((W6_arr m ρ c 6).trans (Cert.KernelIdeal.GruValue.gru_final (V5 m ρ) c)).trans ?_
  have e11 : (V5 m ρ c main_v11 : S100000x64.Idx → EReal) = aggOf m c := by
    show (W5 m ρ c (Proc.devRef .tc main_v11) : S100000x64.Idx → EReal) = _
    rw [W5_v11, kernel_msg m ρ c hsrc htyp]
  have e0 : (V5 m ρ c main_arg0 : S100000x64.Idx → EReal) = hA m c := W5_arg0 m ρ c
  have e2 : (V5 m ρ c main_arg2 : S192x64.Idx → EReal) = wihA m c := W5_arg2 m ρ c
  have e3 : (V5 m ρ c main_arg3 : S192x64.Idx → EReal) = whhA m c := W5_arg3 m ρ c
  have e12 : (fun k : Fin 192 => (V5 m ρ c main_v12 : S1x192.Idx → EReal) (ix2 (0 : Fin 1) k)) = fun k => bihA m c (ix1 k) := by
    funext k
    show (W5 m ρ c (Proc.devRef .tc main_v12) : S1x192.Idx → EReal) (ix2 (0 : Fin 1) k) = _
    rw [W5_v12]
    exact biasRow_apply _ k
  have e13 : (fun k : Fin 192 => (V5 m ρ c main_v13 : S1x192.Idx → EReal) (ix2 (0 : Fin 1) k)) = fun k => bhhA m c (ix1 k) := by
    funext k
    show (W5 m ρ c (Proc.devRef .tc main_v13) : S1x192.Idx → EReal) (ix2 (0 : Fin 1) k) = _
    rw [W5_v13]
    exact biasRow_apply _ k
  rw [e11, e0, e2, e3, e12, e13]

/-- The run with the result read: every weakly fair execution terminates with the result buffer at the gated update
    and the arguments as launched. -/
theorem run (hpre : ∀ c : Dev nD, (∀ e : Fin 1280000, (srcA m c (ix1 e)).toNat < 100000) ∧ (∀ e : Fin 1280000, (typA m c (ix1 e)).toNat < 8)) :
    θ_run defs (onTc (τ := τ) (main (F := Ideal))) ⟨m, fun _ => 0, ρ⟩ (fun r => ∀ c : Dev nD,
      r.2.mem ((c.tc : Thread nD τ).loc main_v14)
        = (Cert.Spec.gru (aggOf m c) (hA m c) (wihA m c) (whhA m c) (fun k => bihA m c (ix1 k)) (fun k => bhhA m c (ix1 k)) : S100000x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c (hpre c).1 (hpre c).2), (h c).2⟩)
    (Cert.KernelIdeal.NamedRun.run_main m ρ)

end Cert.KernelIdeal.Result

end
-- ==== Proof.LibPairGather.lean ====
/-
  GENERAL LEMMA (no program imported): jnp's `table[i, j]` on a rank-3 table, read at an element.

  For a table [A, B, D] and two columns of n indices, `table[i, j]` prints as a `stablehlo.gather` with start indices
  [n, 2] (the index vector on axis 1: component 0 for the table's first axis, component 1 for its second), the table's
  first two axes collapsed and start-indexed, its last axis the result's offset axis, slices of one whole lane row.
  `gather_pair_apply`: the result at (p, q) is the table at (a, b, q), a and b being index p's two words read signed and
  clamped into [0, A − 1] and [0, B − 1], as StableHLO's gather clamps every start index.
-/
import Idealize.ShloMosaic.PureOps.ShapeOps
import Idealize.ShloMosaic.Lib.ValueIdx

noncomputable section

namespace Cert.LibPairGather

open Idealize.ShloMosaic Idealize.ShloMosaic.ValueIdx

/-- The dimension numbers of `table[i, j]` for a table [A, B, D], start indices [n, 2] and a result [n, D]. Their
    conditions are decided on a program's literal shapes; a printed record with these fields is this one. -/
abbrev pairGatherDims (A B D n : Nat)
    (wf : GatherDims.WF ⟨3, ![A, B, D]⟩ ⟨2, ![n, 2]⟩ ⟨2, ![n, D]⟩ [1] [0, 1] [] [0, 1] [] 1 ![1, 1, D]) :
    GatherDims ⟨3, ![A, B, D]⟩ ⟨2, ![n, 2]⟩ ⟨2, ![n, D]⟩ where
  offsetDims := [1]
  collapsedSliceDims := [0, 1]
  operandBatchingDims := []
  startIndicesBatchingDims := []
  startIndexMap := [0, 1]
  indexVectorDim := 1
  sliceSizes := ![1, 1, D]
  wf := wf

/-- THE GATHER READ AT (p, q): entry q of the lane row that index p's two words name, each clamped into the table. -/
theorem gather_pair_apply {α : Type} {A B D n w : Nat} (hA : 0 < A) (hB : 0 < B)
    (wf : GatherDims.WF ⟨3, ![A, B, D]⟩ ⟨2, ![n, 2]⟩ ⟨2, ![n, D]⟩ [1] [0, 1] [] [0, 1] [] 1 ![1, 1, D])
    (x : (⟨3, ![A, B, D]⟩ : Shape).Idx → α) (idx : IVec ⟨2, ![n, 2]⟩ w) (p : Fin n) (q : Fin D) :
    Host.gather (pairGatherDims A B D n wf) x idx (ix2 p q)
      = x (ix3 ⟨min (idx (ix2 p (0 : Fin 2))).toInt.toNat (A - 1), by omega⟩
              ⟨min (idx (ix2 p (1 : Fin 2))).toInt.toNat (B - 1), by omega⟩ q) := by
  unfold Host.gather
  refine congrArg x (funext fun a => Fin.ext ?_)
  match a with
  | ⟨0, _⟩ =>
    show (pairGatherDims A B D n wf).start (ix2 p q) idx 0 + (pairGatherDims A B D n wf).batchCoord (ix2 p q) 0
      + (pairGatherDims A B D n wf).offCoord (ix2 p q) 0 = min (idx (ix2 p (0 : Fin 2))).toInt.toNat (A - 1)
    rw [GatherDims.batchCoord_eq_zero (pairGatherDims A B D n wf) _ 0 (by show (0 : Fin 3) ∉ ([] : List (Fin 3)); decide),
      GatherDims.offCoord_eq_zero (pairGatherDims A B D n wf) _ 0
        (fun h => ((GatherDims.mem_sKept _ _).mp h).1 (by show (0 : Fin 3) ∈ ([0, 1] : List (Fin 3)); decide))]
    simp only [Nat.add_zero]
    unfold GatherDims.start
    rw [dif_pos (show (0 : Fin 3) ∈ (pairGatherDims A B D n wf).startIndexMap from by
      show (0 : Fin 3) ∈ ([0, 1] : List (Fin 3)); decide)]
    have hsi : (pairGatherDims A B D n wf).siIdx (ix2 p q)
        ⟨List.idxOf (0 : Fin 3) (pairGatherDims A B D n wf).startIndexMap,
          List.idxOf_lt_length_iff.2 (by show (0 : Fin 3) ∈ ([0, 1] : List (Fin 3)); decide)⟩
        = ix2 p (0 : Fin 2) := funext fun b => Fin.ext (by
      match b with
      | ⟨0, _⟩ => rfl
      | ⟨1, _⟩ => rfl)
    rw [hsi]
    rfl
  | ⟨1, _⟩ =>
    show (pairGatherDims A B D n wf).start (ix2 p q) idx 1 + (pairGatherDims A B D n wf).batchCoord (ix2 p q) 1
      + (pairGatherDims A B D n wf).offCoord (ix2 p q) 1 = min (idx (ix2 p (1 : Fin 2))).toInt.toNat (B - 1)
    rw [GatherDims.batchCoord_eq_zero (pairGatherDims A B D n wf) _ 1 (by show (1 : Fin 3) ∉ ([] : List (Fin 3)); decide),
      GatherDims.offCoord_eq_zero (pairGatherDims A B D n wf) _ 1
        (fun h => ((GatherDims.mem_sKept _ _).mp h).1 (by show (1 : Fin 3) ∈ ([0, 1] : List (Fin 3)); decide))]
    simp only [Nat.add_zero]
    unfold GatherDims.start
    rw [dif_pos (show (1 : Fin 3) ∈ (pairGatherDims A B D n wf).startIndexMap from by
      show (1 : Fin 3) ∈ ([0, 1] : List (Fin 3)); decide)]
    have hsi : (pairGatherDims A B D n wf).siIdx (ix2 p q)
        ⟨List.idxOf (1 : Fin 3) (pairGatherDims A B D n wf).startIndexMap,
          List.idxOf_lt_length_iff.2 (by show (1 : Fin 3) ∈ ([0, 1] : List (Fin 3)); decide)⟩
        = ix2 p (1 : Fin 2) := funext fun b => Fin.ext (by
      match b with
      | ⟨0, _⟩ => rfl
      | ⟨1, _⟩ => rfl)
    rw [hsi]
    rfl
  | ⟨2, _⟩ =>
    show (pairGatherDims A B D n wf).start (ix2 p q) idx 2 + (pairGatherDims A B D n wf).batchCoord (ix2 p q) 2
      + (pairGatherDims A B D n wf).offCoord (ix2 p q) 2 = q.val
    rw [GatherDims.batchCoord_eq_zero (pairGatherDims A B D n wf) _ 2 (by show (2 : Fin 3) ∉ ([] : List (Fin 3)); decide)]
    have hs : (pairGatherDims A B D n wf).start (ix2 p q) idx 2 = 0 := by
      unfold GatherDims.start
      rw [dif_neg (show (2 : Fin 3) ∉ (pairGatherDims A B D n wf).startIndexMap from by
        show (2 : Fin 3) ∉ ([0, 1] : List (Fin 3)); decide)]
    rw [hs]
    have hk : (2 : Fin 3) ∈ (pairGatherDims A B D n wf).sKept :=
      (GatherDims.mem_sKept _ _).mpr ⟨by show (2 : Fin 3) ∉ ([0, 1] : List (Fin 3)); decide,
        by show (2 : Fin 3) ∉ ([] : List (Fin 3)); decide⟩
    unfold GatherDims.offCoord
    rw [dif_pos hk]
    simp only [Nat.zero_add]
    rfl

end Cert.LibPairGather

end
-- ==== Proof.RefMsg.lean ====
/-
  The reference's per-edge messages are the specification's.

  The reference forms, for every node n, type t and lane q, the number  ∑ₖ h[n,k] · A[t][q,k]  (a contraction of the
  node states with the edge matrices reshaped to [8, 64, 64], so that A[t][q,k] = edge_matrix[t, 64·q + k]), lays these
  out as a table [8, 100000, 64], and reads the table's lane row at (type[e], src[e]) for every edge e. Before the read
  it wraps a negative index by the axis' extent; an index word whose value is below 2³¹ is not negative when read
  signed, so under the range hypotheses the wrap leaves every word as it is. The read clamps each index into the
  table, which is the clamp the specification's srcOf and typOf apply. What is left is the equality of two sums over
  k : Fin 64, term by term, after the reshape's row-major index ((64·t + q)·64 + k) is split as (t, 64·q + k).
-/
import proofs.«401008_j38878043963480_3_alg».proof.Proof.Gen.ReferenceIdeal.Read
import proofs.«401008_j38878043963480_3_alg».proof.Proof.Spec
import proofs.«401008_j38878043963480_3_alg».proof.Proof.LibPairGather
import Idealize.ShloMosaic.Lib.StableHlo.Predicate

noncomputable section

open scoped BigOperators

namespace Cert.ReferenceIdeal.RefMsg

open Cert.ReferenceIdeal Cert.ReferenceIdeal.Gen Cert.ReferenceIdeal.Read Idealize.ShloMosaic Idealize.ShloMosaic.ValueIdx

/-! ## Words -/

/-- A word whose value is below 2³¹ is not below zero when read signed. -/
theorem slt_zero_of_lt {w : BitVec 32} (h : w.toNat < 2 ^ 31) : IntOp.cmpi .slt w 0#32 = 0#1 := by
  have hw : w.toInt = (w.toNat : Int) := StableHlo.Predicate.toInt_eq_toNat_of_lt h
  have hs : w.slt 0#32 = false := by
    rw [Bool.eq_false_iff]
    intro hlt
    rw [BitVec.slt_iff_toInt_lt, hw, show (0#32 : BitVec 32).toInt = 0 from by decide] at hlt
    omega
  show BitVec.ofBool (w.slt 0#32) = 0#1
  rw [hs]
  rfl

/-- The wrap of a negative index, select (w < 0) (w + n) w, leaves a word below 2³¹ as it is. -/
theorem wrap_of_lt {w : BitVec 32} (a : BitVec 32) (h : w.toNat < 2 ^ 31) :
    Scalar.select (IntOp.cmpi .slt w 0#32) a w = w := by
  rw [slt_zero_of_lt h, select_zero]

/-- The index a read clamps a word below 2³¹ to: the word's value, clamped. -/
theorem clamp_of_lt {w : BitVec 32} (m : Nat) (h : w.toNat < 2 ^ 31) : min w.toInt.toNat m = min w.toNat m := by
  rw [StableHlo.Predicate.toInt_eq_toNat_of_lt h, Int.toNat_natCast]

/-! ## The wrapped index arrays -/

/-- The wrapped type array at a word below 2³¹ is the type array. -/
theorem v7_eq (x8 : IVec S1280000 32) (i : S1280000.Idx) (h : (x8 i).toNat < 2 ^ 31) :
    val_main_v7 (F := Ideal) x8 i = x8 i := by
  rw [val_main_v7_apply, val_main_v4_apply, val_main_v3_apply, val_main_c_apply]
  exact wrap_of_lt _ h

/-- The wrapped source array at a word below 2³¹ is the source array. -/
theorem v12_eq (x6 : IVec S1280000 32) (i : S1280000.Idx) (h : (x6 i).toNat < 2 ^ 31) :
    val_main_v12 (F := Ideal) x6 i = x6 i := by
  rw [val_main_v12_apply, val_main_v9_apply, val_main_v8_apply, val_main_c_1_apply]
  exact wrap_of_lt _ h

/-! ## The start indices [1280000, 2]: component 0 the type, component 1 the source -/

/-- Component 0 of edge e's start index is the wrapped type word. -/
theorem v15_zero (x6 x8 : IVec S1280000 32) (e : Fin 1280000) :
    val_main_v15 (F := Ideal) x6 x8 (ix2 e (0 : Fin 2)) = val_main_v7 (F := Ideal) x8 (ix1 e) := by
  unfold val_main_v15
  rw [concatenate_pair_apply_left (1 : Fin S1280000x2.rank) (val_main_v13 (F := Ideal) x8) (val_main_v14 (F := Ideal) x6)
    concatenates_S1280000x1_S1280000x1_S1280000x2_d1 (ix2 e (0 : Fin 2)) rfl (ix2 e (0 : Fin 1))
    (fun b => match b with
      | ⟨0, _⟩ => rfl
      | ⟨1, _⟩ => rfl)]
  rw [val_main_v13_apply]
  exact congrArg (val_main_v7 (F := Ideal) x8) (funext fun a => match a with | ⟨0, _⟩ => rfl)

/-- Component 1 of edge e's start index is the wrapped source word. -/
theorem v15_one (x6 x8 : IVec S1280000 32) (e : Fin 1280000) :
    val_main_v15 (F := Ideal) x6 x8 (ix2 e (1 : Fin 2)) = val_main_v12 (F := Ideal) x6 (ix1 e) := by
  unfold val_main_v15
  rw [concatenate_pair_apply_right (1 : Fin S1280000x2.rank) (val_main_v13 (F := Ideal) x8) (val_main_v14 (F := Ideal) x6)
    concatenates_S1280000x1_S1280000x1_S1280000x2_d1 (ix2 e (1 : Fin 2)) rfl rfl (ix2 e (0 : Fin 1))
    (fun b => match b with
      | ⟨0, _⟩ => fun _ => rfl
      | ⟨1, _⟩ => fun hb => absurd rfl hb)
    rfl]
  rw [val_main_v14_apply]
  exact congrArg (val_main_v12 (F := Ideal) x6) (funext fun a => match a with | ⟨0, _⟩ => rfl)

/-! ## The read of the table -/

/-- Edge e's message is the table's lane row at (type of e, source of e). -/
theorem v16_apply (x0 : FVec Ideal S100000x64 .f32) (x1 : FVec Ideal S8x4096 .f32) (x6 x8 : IVec S1280000 32)
    (hsrc : ∀ e : Fin 1280000, (x6 (ix1 e)).toNat < 100000) (htyp : ∀ e : Fin 1280000, (x8 (ix1 e)).toNat < 8)
    (e : Fin 1280000) (q : Fin 64) :
    val_main_v16 (F := Ideal) x0 x1 x6 x8 (ix2 e q)
      = val_main_v2 (F := Ideal) x0 x1 (ix3 (Cert.Spec.typOf x8 e) (Cert.Spec.srcOf x6 e) q) := by
  have h8 : (x8 (ix1 e)).toNat < 2 ^ 31 := lt_trans (htyp e) (by norm_num)
  have h6 : (x6 (ix1 e)).toNat < 2 ^ 31 := lt_trans (hsrc e) (by norm_num)
  unfold val_main_v16
  show Host.gather (Cert.LibPairGather.pairGatherDims 8 100000 64 1280000
      gather_S8x100000x64_S1280000x2_S1280000x64_1_01_n_n_01_1_1164_wf)
    (val_main_v2 (F := Ideal) x0 x1) (val_main_v15 (F := Ideal) x6 x8) (ix2 e q) = _
  rw [Cert.LibPairGather.gather_pair_apply (by decide) (by decide)]
  refine congrArg (val_main_v2 (F := Ideal) x0 x1) (funext fun a => Fin.ext ?_)
  match a with
  | ⟨0, _⟩ =>
    show min (val_main_v15 (F := Ideal) x6 x8 (ix2 e (0 : Fin 2))).toInt.toNat (8 - 1) = min (x8 (ix1 e)).toNat 7
    rw [v15_zero, v7_eq x8 (ix1 e) h8, clamp_of_lt _ h8]
  | ⟨1, _⟩ =>
    show min (val_main_v15 (F := Ideal) x6 x8 (ix2 e (1 : Fin 2))).toInt.toNat (100000 - 1) = min (x6 (ix1 e)).toNat 99999
    rw [v15_one, v12_eq x6 (ix1 e) h6, clamp_of_lt _ h6]
  | ⟨2, _⟩ => rfl

/-- The table at (t, n, q) is node n's message of type t, lane q. -/
theorem v2_apply (x0 : FVec Ideal S100000x64 .f32) (x1 : FVec Ideal S8x4096 .f32)
    (t : Fin 8) (n : Fin 100000) (q : Fin 64) :
    val_main_v2 (F := Ideal) x0 x1 (ix3 t n q) = Cert.Spec.nodeMsg x0 x1 n t q := by
  rw [val_main_v2_apply, val_main_v1_apply]
  unfold Cert.Spec.nodeMsg
  refine Finset.sum_congr rfl fun k _ => ?_
  rw [val_main_v0_apply]
  have el : lidx_main_v1 (idx_main_v2 (ix3 t n q)) k = ix2 n k :=
    funext fun a => match a with
      | ⟨0, _⟩ => rfl
      | ⟨1, _⟩ => rfl
  have er : idx_main_v0 (ridx_main_v1 (idx_main_v2 (ix3 t n q)) k)
      = ix2 t (⟨q.val * 64 + k.val, by have := q.isLt; have := k.isLt; omega⟩ : Fin 4096) :=
    funext fun a => Fin.ext (by
      have ht := t.isLt; have hq := q.isLt; have hk := k.isLt
      match a with
      | ⟨0, _⟩ => show ((t.val * 64 + q.val) * 64 + k.val) / 4096 = t.val; omega
      | ⟨1, _⟩ => show ((t.val * 64 + q.val) * 64 + k.val) % 4096 = q.val * 64 + k.val; omega)
  rw [el, er]

/-! ## The per-edge messages -/

theorem msg_eq (x0 : FVec Ideal S100000x64 .f32) (x1 : FVec Ideal S8x4096 .f32) (x6 x8 : IVec S1280000 32)
    (hsrc : ∀ e : Fin 1280000, (x6 (ix1 e)).toNat < 100000) (htyp : ∀ e : Fin 1280000, (x8 (ix1 e)).toNat < 8) :
    val_main_v16 (F := Ideal) x0 x1 x6 x8 = Cert.Spec.edgeMsg x0 x1 x6 x8 := by
  funext j
  obtain ⟨e, q, rfl⟩ : ∃ (e : Fin 1280000) (q : Fin 64), j = ix2 e q := ⟨j 0, j 1, eq_ix2 j⟩
  rw [Cert.Spec.edgeMsg_apply, v16_apply x0 x1 x6 x8 hsrc htyp e q, v2_apply]

end Cert.ReferenceIdeal.RefMsg

end
-- ==== Proof.RefGru.lean ====
/-
  The reference's gated update, read element by element, is the specification's.

  With agg the aggregated messages (kept as one array), the reference forms the two rows of gate pre-activations
      gi[n, c] = ∑ₖ agg[n, k] · w_ih[c, k] + b_ih[c],      gh[n, c] = ∑ₖ h[n, k] · w_hh[c, k] + b_hh[c]      (c < 192)
  (the weights enter transposed, so the product's right operand at (k, c) is the weight at (c, k); the bias, a row
  repeated down the nodes, is read at the column), cuts each into the three 64-column bands at offsets 0, 64 and 128, and
  combines them lane by lane:
      r = 1 / (1 + e^(−(gi[j] + gh[j]))),   z = 1 / (1 + e^(−(gi[64+j] + gh[64+j]))),
      c = tanh (gi[128+j] + r · gh[128+j]),  h'[n, j] = (1 − z) · c + z · h[n, j].
  The quotient 1 / (1 + e^(−x)) is the logistic function by its definition, the float word of 1 being the number 1.
-/
import proofs.«401008_j38878043963480_3_alg».proof.Proof.Gen.ReferenceIdeal.Read
import proofs.«401008_j38878043963480_3_alg».proof.Proof.Spec

noncomputable section

open scoped BigOperators

namespace Cert.ReferenceIdeal.RefGru

open Cert.ReferenceIdeal Cert.ReferenceIdeal.Gen Cert.ReferenceIdeal.Read Idealize.ShloMosaic Idealize.ShloMosaic.ValueIdx

/-! ## The composed index functions at a node and a column -/

/-- The input-side product reads the aggregated messages at (n, k) … -/
theorem lidx21_eq (n : Fin 100000) (c : Fin 192) (k : Fin 64) : lidx_main_v21 (ix2 n c) k = ix2 n k := by
  funext a; match a with | ⟨0, _⟩ => rfl | ⟨1, _⟩ => rfl
/-- … and, through the transpose, the weight at (c, k). -/
theorem ridx21_eq (n : Fin 100000) (c : Fin 192) (k : Fin 64) :
    idx_main_v20 (ridx_main_v21 (ix2 n c) k) = ix2 c k := by
  funext a; match a with | ⟨0, _⟩ => rfl | ⟨1, _⟩ => rfl
/-- The input-side bias, a row repeated down the nodes, is read at the column. -/
theorem bias23_eq (n : Fin 100000) (c : Fin 192) : idx_main_v22 (idx_main_v23 (ix2 n c)) = ix1 c := by
  funext a; match a with | ⟨0, _⟩ => rfl
/-- The state-side product reads the state at (n, k) … -/
theorem lidx26_eq (n : Fin 100000) (c : Fin 192) (k : Fin 64) : lidx_main_v26 (ix2 n c) k = ix2 n k := by
  funext a; match a with | ⟨0, _⟩ => rfl | ⟨1, _⟩ => rfl
/-- … and, through the transpose, the weight at (c, k). -/
theorem ridx26_eq (n : Fin 100000) (c : Fin 192) (k : Fin 64) :
    idx_main_v25 (ridx_main_v26 (ix2 n c) k) = ix2 c k := by
  funext a; match a with | ⟨0, _⟩ => rfl | ⟨1, _⟩ => rfl
/-- The state-side bias is read at the column. -/
theorem bias28_eq (n : Fin 100000) (c : Fin 192) : idx_main_v27 (idx_main_v28 (ix2 n c)) = ix1 c := by
  funext a; match a with | ⟨0, _⟩ => rfl

/-- The three bands of a 192-column row: lane j of the band at offset 0, 64, 128 is column j, 64 + j, 128 + j. -/
abbrev colR (j : Fin 64) : Fin 192 := ⟨j.val, by have := j.isLt; omega⟩
abbrev colZ (j : Fin 64) : Fin 192 := ⟨64 + j.val, by have := j.isLt; omega⟩
abbrev colN (j : Fin 64) : Fin 192 := ⟨128 + j.val, by have := j.isLt; omega⟩

theorem idx30_eq (n : Fin 100000) (j : Fin 64) : idx_main_v30 (ix2 n j) = ix2 n (colR j) := by
  funext a; match a with | ⟨0, _⟩ => rfl | ⟨1, _⟩ => rfl
theorem idx31_eq (n : Fin 100000) (j : Fin 64) : idx_main_v31 (ix2 n j) = ix2 n (colZ j) := by
  funext a; match a with | ⟨0, _⟩ => rfl | ⟨1, _⟩ => rfl
theorem idx32_eq (n : Fin 100000) (j : Fin 64) : idx_main_v32 (ix2 n j) = ix2 n (colN j) := by
  funext a; match a with | ⟨0, _⟩ => rfl | ⟨1, _⟩ => rfl
theorem idx33_eq (n : Fin 100000) (j : Fin 64) : idx_main_v33 (ix2 n j) = ix2 n (colR j) := by
  funext a; match a with | ⟨0, _⟩ => rfl | ⟨1, _⟩ => rfl
theorem idx34_eq (n : Fin 100000) (j : Fin 64) : idx_main_v34 (ix2 n j) = ix2 n (colZ j) := by
  funext a; match a with | ⟨0, _⟩ => rfl | ⟨1, _⟩ => rfl
theorem idx35_eq (n : Fin 100000) (j : Fin 64) : idx_main_v35 (ix2 n j) = ix2 n (colN j) := by
  funext a; match a with | ⟨0, _⟩ => rfl | ⟨1, _⟩ => rfl

/-! ## The two rows of gate pre-activations -/

/-- gi[n, c] = ∑ₖ agg[n, k] · w_ih[c, k] + b_ih[c]. -/
theorem gi_at (x0 : FVec Ideal S100000x64 .f32) (x1 : FVec Ideal S8x4096 .f32) (x2 : FVec Ideal S192x64 .f32)
    (x4 : FVec Ideal S192 .f32) (x6 x7 x8 : IVec S1280000 32) (n : Fin 100000) (c : Fin 192) :
    val_main_v24 (F := Ideal) x0 x1 x2 x4 x6 x7 x8 (ix2 n c)
      = Cert.Spec.gate (val_main_v19 (F := Ideal) x0 x1 x6 x7 x8) x2 (fun c => x4 (ix1 c)) n c := by
  rw [val_main_v24_apply, val_main_v21_apply, val_main_v23_apply, val_main_v22_apply, bias23_eq]
  simp only [val_main_v20_apply, lidx21_eq, ridx21_eq]
  rfl

/-- gh[n, c] = ∑ₖ h[n, k] · w_hh[c, k] + b_hh[c]. -/
theorem gh_at (x0 : FVec Ideal S100000x64 .f32) (x3 : FVec Ideal S192x64 .f32) (x5 : FVec Ideal S192 .f32)
    (n : Fin 100000) (c : Fin 192) :
    val_main_v29 (F := Ideal) x0 x3 x5 (ix2 n c) = Cert.Spec.gate x0 x3 (fun c => x5 (ix1 c)) n c := by
  rw [val_main_v29_apply, val_main_v26_apply, val_main_v28_apply, val_main_v27_apply, bias28_eq]
  simp only [val_main_v25_apply, lidx26_eq, ridx26_eq]
  rfl

/-! ## The two sigmoids -/

/-- The quotient 1 / (1 + e^(−x)) with the float word of 1 is the logistic function. -/
theorem sigmoid_eq (x : EReal) :
    Ideal.div (Ideal.ofBits .f32 0x3F800000#32) (Ideal.ofBits .f32 0x3F800000#32 + Ideal.exp (-x)) = Ideal.logistic x := by
  have h1 : Ideal.ofBits .f32 0x3F800000#32 = (1 : EReal) := Cert.Spec.one_eq
  rw [h1]
  rfl

/-- The reset gate r at node n, lane j. -/
theorem r_at (x0 : FVec Ideal S100000x64 .f32) (x1 : FVec Ideal S8x4096 .f32) (x2 x3 : FVec Ideal S192x64 .f32)
    (x4 x5 : FVec Ideal S192 .f32) (x6 x7 x8 : IVec S1280000 32) (n : Fin 100000) (j : Fin 64) :
    val_main_v42 (F := Ideal) x0 x1 x2 x3 x4 x5 x6 x7 x8 (ix2 n j)
      = Ideal.logistic (Cert.Spec.gate (val_main_v19 (F := Ideal) x0 x1 x6 x7 x8) x2 (fun c => x4 (ix1 c)) n (colR j)
          + Cert.Spec.gate x0 x3 (fun c => x5 (ix1 c)) n (colR j)) := by
  rw [val_main_v42_apply, val_main_v41_apply, val_main_cst_4_apply, val_main_v40_apply, val_main_v39_apply,
    val_main_cst_3_apply, val_main_v38_apply, val_main_v37_apply, val_main_v36_apply, val_main_v30_apply,
    val_main_v33_apply, idx30_eq, idx33_eq, gi_at, gh_at]
  simp only [Ideal.hostDivf_def, Ideal.ofBits_def, Ideal.addf_def, Ideal.hostUnary_exp_def, Ideal.hostNegf_def,
    Ideal.negf_def]
  exact sigmoid_eq _

/-- The update gate z at node n, lane j. -/
theorem z_at (x0 : FVec Ideal S100000x64 .f32) (x1 : FVec Ideal S8x4096 .f32) (x2 x3 : FVec Ideal S192x64 .f32)
    (x4 x5 : FVec Ideal S192 .f32) (x6 x7 x8 : IVec S1280000 32) (n : Fin 100000) (j : Fin 64) :
    val_main_v49 (F := Ideal) x0 x1 x2 x3 x4 x5 x6 x7 x8 (ix2 n j)
      = Ideal.logistic (Cert.Spec.gate (val_main_v19 (F := Ideal) x0 x1 x6 x7 x8) x2 (fun c => x4 (ix1 c)) n (colZ j)
          + Cert.Spec.gate x0 x3 (fun c => x5 (ix1 c)) n (colZ j)) := by
  rw [val_main_v49_apply, val_main_v48_apply, val_main_cst_6_apply, val_main_v47_apply, val_main_v46_apply,
    val_main_cst_5_apply, val_main_v45_apply, val_main_v44_apply, val_main_v43_apply, val_main_v31_apply,
    val_main_v34_apply, idx31_eq, idx34_eq, gi_at, gh_at]
  simp only [Ideal.hostDivf_def, Ideal.ofBits_def, Ideal.addf_def, Ideal.hostUnary_exp_def, Ideal.hostNegf_def,
    Ideal.negf_def]
  exact sigmoid_eq _

/-! ## The update -/

/-- The reference's result is the specification's gated update of the aggregated messages and the state. -/
theorem result_eq (x0 : FVec Ideal S100000x64 .f32) (x1 : FVec Ideal S8x4096 .f32) (x2 x3 : FVec Ideal S192x64 .f32) (x4 x5 : FVec Ideal S192 .f32) (x6 x7 x8 : IVec S1280000 32) :
    val_main_v57 (F := Ideal) x0 x1 x2 x3 x4 x5 x6 x7 x8
      = Cert.Spec.gru (val_main_v19 (F := Ideal) x0 x1 x6 x7 x8) x0 x2 x3 (fun c => x4 (ix1 c)) (fun c => x5 (ix1 c)) := by
  funext i
  obtain ⟨n, j, rfl⟩ : ∃ (n : Fin 100000) (j : Fin 64), i = ix2 n j := ⟨i 0, i 1, eq_ix2 i⟩
  rw [Cert.Spec.gru_apply, val_main_v57_apply, val_main_v55_apply, val_main_v56_apply, val_main_v54_apply,
    val_main_v53_apply, val_main_cst_7_apply, val_main_v52_apply, val_main_v51_apply, val_main_v50_apply,
    val_main_v32_apply, val_main_v35_apply, idx32_eq, idx35_eq, gi_at, gh_at, r_at, z_at]
  simp only [Ideal.addf_def, Ideal.mulf_def, Ideal.subf_def, Ideal.ofBits_def, Ideal.hostUnary_tanh_def]
  rfl

end Cert.ReferenceIdeal.RefGru

end
-- ==== Proof.lean ====
/-
  One step of a gated graph network: the Pallas program against its jnp reference, over the extended reals.

  Both programs compute, for every node n and lane j,
      h'[n, j] = (1 − z) · tanh(gi[128+j] + r · gh[128+j]) + z · h[n, j],
      r = σ(gi[j] + gh[j]),  z = σ(gi[64+j] + gh[64+j]),
      gi[c] = ∑ₖ agg[n,k] · w_ih[c,k] + b_ih[c],   gh[c] = ∑ₖ h[n,k] · w_hh[c,k] + b_hh[c],
  where agg sums, per destination node, the messages  msg[e, q] = ∑ₖ h[src e, k] · edge_matrix[type e, 64·q + k]  of the
  edges.  The Pallas program forms every node's messages of all eight types in one product with the lane-folded matrix
  and reads row 8·src + type of its row-per-(node, type) view; the reference contracts the node states with the edge
  matrices as [8, 64, 64] and reads the table at (type, src).  The two reads name the same message exactly when src lies in
  [0, 100000) and type in [0, 8), which the precondition states.  The per-destination sum is the same host operation in
  both programs, applied to equal messages, and the gated update is the same arithmetic: the kernel's logistic function is
  the reference's quotient 1 / (1 + e^(−x)), its products into a zero accumulator are the reference's contractions, and the
  roundings to bf16 are the identity.  No law used needs the inputs finite.
-/
import proofs.«401008_j38878043963480_3_alg».proof.Defs
import proofs.«401008_j38878043963480_3_alg».proof.Proof.Gen.Kernel
import proofs.«401008_j38878043963480_3_alg».proof.Proof.Gen.Kernel.Skeleton
import proofs.«401008_j38878043963480_3_alg».proof.Proof.Gen.Kernel.Launch
import proofs.«401008_j38878043963480_3_alg».proof.Proof.Gen.Kernel.Points
import proofs.«401008_j38878043963480_3_alg».proof.Proof.Gen.Kernel.Frame
import proofs.«401008_j38878043963480_3_alg».proof.Proof.Gen.KernelIdeal
import proofs.«401008_j38878043963480_3_alg».proof.Proof.Gen.KernelIdeal.Skeleton
import proofs.«401008_j38878043963480_3_alg».proof.Proof.Gen.KernelIdeal.Launch
import proofs.«401008_j38878043963480_3_alg».proof.Proof.Gen.KernelIdeal.Points
import proofs.«401008_j38878043963480_3_alg».proof.Proof.Gen.KernelIdeal.Frame
import proofs.«401008_j38878043963480_3_alg».proof.Proof.Gen.ReferenceIdeal
import proofs.«401008_j38878043963480_3_alg».proof.Proof.Gen.ReferenceIdeal.Run
import proofs.«401008_j38878043963480_3_alg».proof.Proof.Gen.ReferenceIdeal.Read
import proofs.«401008_j38878043963480_3_alg».proof.Proof.Gen.Pre_finite_inputs
import proofs.«401008_j38878043963480_3_alg».proof.Proof.PreDecode
import proofs.«401008_j38878043963480_3_alg».proof.Proof.KernelValue
import proofs.«401008_j38878043963480_3_alg».proof.Proof.RefMsg
import proofs.«401008_j38878043963480_3_alg».proof.Proof.RefGru
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program and its idealization run, nothing faulting, with the arguments unchanged. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs, from memories agreeing on the arguments, end with equal results: each is the
    specification's gated update of the specification's messages summed per destination node. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c : Dev Cert.KernelIdeal.nD,
      (∀ e : Fin 1280000, (Cert.KernelIdeal.Result.srcA m c (ix1 e)).toNat < 100000)
      ∧ (∀ e : Fin 1280000, (Cert.KernelIdeal.Result.typA m c (ix1 e)).toNat < 8) :=
    fun c => Cert.PreDecode.ranges (F := Ideal) _ _ _ _ _ _ _ _ _ (hpre c)
  refine ⟨fun c => Cert.Spec.gru (Cert.KernelIdeal.Result.aggOf m c) (Cert.KernelIdeal.Result.hA m c)
      (Cert.KernelIdeal.Result.wihA m c) (Cert.KernelIdeal.Result.whhA m c)
      (fun k => Cert.KernelIdeal.Result.bihA m c (ix1 k)) (fun k => Cert.KernelIdeal.Result.bhhA m c (ix1 k)),
    Cert.KernelIdeal.Result.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v57_eq, a0, a1, a2, a3, a4, a5, a6, a7, a8, Cert.ReferenceIdeal.RefGru.result_eq]
  unfold Cert.ReferenceIdeal.Read.val_main_v19
  rw [Cert.ReferenceIdeal.RefMsg.msg_eq _ _ _ _ (hr c).1 (hr c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
